-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x64x31 : Shape := ⟨4, ![256, 64, 64, 31]⟩
abbrev S1024 : Shape := ⟨1, ![1024]⟩
abbrev S_ : Shape := ⟨0, ![]⟩

class Facts : Prop where
  bcast_S_S256x64x64x31 : S_.BroadcastsInDim S256x64x64x31 (![] : Fin 0 → Fin S256x64x64x31.rank)
  reducesTo_S256x64x64x31_S_d0_1_2_3 : S256x64x64x31.ReducesTo [0, 1, 2, 3] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S256x64x64x31 .f32) (main_arg1 : FVec F S1024 .f32) : IVec S_ 1 :=
  let main_v0 : FVec F S256x64x64x31 .f32 := Host.absf main_arg0
  let main_cst : FVec F S_ .f32 := constant S_ .f32 0x7F800000#32
  let main_v1 : FVec F S256x64x64x31 .f32 := broadcastInDim S256x64x64x31 ![] bcast_S_S256x64x64x31 main_cst
  let main_v2 : IVec S256x64x64x31 1 := cmpf .olt main_v0 main_v1
  let main_c : IVec S_ 1 := constantI S_ 1 1#1
  let main_v3 : IVec S_ 1 := (fun x v => Host.reduce IntOp.andi x v reducesTo_S256x64x64x31_S_d0_1_2_3 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S256x64x64x31 : Shape := ⟨4, ![256, 64, 64, 31]⟩
abbrev S1024 : Shape := ⟨1, ![1024]⟩
abbrev S32x32 : Shape := ⟨2, ![32, 32]⟩
abbrev S1x32x1x32 : Shape := ⟨4, ![1, 32, 1, 32]⟩
abbrev S2x32x2x32 : Shape := ⟨4, ![2, 32, 2, 32]⟩
abbrev S64x64 : Shape := ⟨2, ![64, 64]⟩
abbrev S0x64 : Shape := ⟨2, ![0, 64]⟩
abbrev S1x64 : Shape := ⟨2, ![1, 64]⟩
abbrev S63x64 : Shape := ⟨2, ![63, 64]⟩
abbrev S2x64 : Shape := ⟨2, ![2, 64]⟩
abbrev S62x64 : Shape := ⟨2, ![62, 64]⟩
abbrev S3x64 : Shape := ⟨2, ![3, 64]⟩
abbrev S61x64 : Shape := ⟨2, ![61, 64]⟩
abbrev S4x64 : Shape := ⟨2, ![4, 64]⟩
abbrev S60x64 : Shape := ⟨2, ![60, 64]⟩
abbrev S5x64 : Shape := ⟨2, ![5, 64]⟩
abbrev S59x64 : Shape := ⟨2, ![59, 64]⟩
abbrev S6x64 : Shape := ⟨2, ![6, 64]⟩
abbrev S58x64 : Shape := ⟨2, ![58, 64]⟩
abbrev S7x64 : Shape := ⟨2, ![7, 64]⟩
abbrev S57x64 : Shape := ⟨2, ![57, 64]⟩
abbrev S8x64 : Shape := ⟨2, ![8, 64]⟩
abbrev S56x64 : Shape := ⟨2, ![56, 64]⟩
abbrev S9x64 : Shape := ⟨2, ![9, 64]⟩
abbrev S55x64 : Shape := ⟨2, ![55, 64]⟩
abbrev S10x64 : Shape := ⟨2, ![10, 64]⟩
abbrev S54x64 : Shape := ⟨2, ![54, 64]⟩
abbrev S11x64 : Shape := ⟨2, ![11, 64]⟩
abbrev S53x64 : Shape := ⟨2, ![53, 64]⟩
abbrev S12x64 : Shape := ⟨2, ![12, 64]⟩
abbrev S52x64 : Shape := ⟨2, ![52, 64]⟩
abbrev S13x64 : Shape := ⟨2, ![13, 64]⟩
abbrev S51x64 : Shape := ⟨2, ![51, 64]⟩
abbrev S14x64 : Shape := ⟨2, ![14, 64]⟩
abbrev S50x64 : Shape := ⟨2, ![50, 64]⟩
abbrev S15x64 : Shape := ⟨2, ![15, 64]⟩
abbrev S49x64 : Shape := ⟨2, ![49, 64]⟩
abbrev S16x64 : Shape := ⟨2, ![16, 64]⟩
abbrev S48x64 : Shape := ⟨2, ![48, 64]⟩
abbrev S17x64 : Shape := ⟨2, ![17, 64]⟩
abbrev S47x64 : Shape := ⟨2, ![47, 64]⟩
abbrev S18x64 : Shape := ⟨2, ![18, 64]⟩
abbrev S46x64 : Shape := ⟨2, ![46, 64]⟩
abbrev S19x64 : Shape := ⟨2, ![19, 64]⟩
abbrev S45x64 : Shape := ⟨2, ![45, 64]⟩
abbrev S20x64 : Shape := ⟨2, ![20, 64]⟩
abbrev S44x64 : Shape := ⟨2, ![44, 64]⟩
abbrev S21x64 : Shape := ⟨2, ![21, 64]⟩
abbrev S43x64 : Shape := ⟨2, ![43, 64]⟩
abbrev S22x64 : Shape := ⟨2, ![22, 64]⟩
abbrev S42x64 : Shape := ⟨2, ![42, 64]⟩
abbrev S23x64 : Shape := ⟨2, ![23, 64]⟩
abbrev S41x64 : Shape := ⟨2, ![41, 64]⟩
abbrev S24x64 : Shape := ⟨2, ![24, 64]⟩
abbrev S40x64 : Shape := ⟨2, ![40, 64]⟩
abbrev S25x64 : Shape := ⟨2, ![25, 64]⟩
abbrev S39x64 : Shape := ⟨2, ![39, 64]⟩
abbrev S26x64 : Shape := ⟨2, ![26, 64]⟩
abbrev S38x64 : Shape := ⟨2, ![38, 64]⟩
abbrev S27x64 : Shape := ⟨2, ![27, 64]⟩
abbrev S37x64 : Shape := ⟨2, ![37, 64]⟩
abbrev S28x64 : Shape := ⟨2, ![28, 64]⟩
abbrev S36x64 : Shape := ⟨2, ![36, 64]⟩
abbrev S29x64 : Shape := ⟨2, ![29, 64]⟩
abbrev S35x64 : Shape := ⟨2, ![35, 64]⟩
abbrev S30x64 : Shape := ⟨2, ![30, 64]⟩
abbrev S34x64 : Shape := ⟨2, ![34, 64]⟩
abbrev S64x64x1 : Shape := ⟨3, ![64, 64, 1]⟩
abbrev S64x64x16 : Shape := ⟨3, ![64, 64, 16]⟩
abbrev S64x64x15 : Shape := ⟨3, ![64, 64, 15]⟩
abbrev S64x64x31 : Shape := ⟨3, ![64, 64, 31]⟩
abbrev S256x64x64 : Shape := ⟨3, ![256, 64, 64]⟩
abbrev S4x64x64x31 : Shape := ⟨4, ![4, 64, 64, 31]⟩
abbrev S4x64x64 : Shape := ⟨3, ![4, 64, 64]⟩
abbrev S1x64x64x31 : Shape := ⟨4, ![1, 64, 64, 31]⟩

abbrev nBuf : Space → Nat
  | .hbm => 135
  | .vmem => 5
  | .smem => 0
  | _ => 0

abbrev hbmTy0_0 (i : Nat) : BufTy := match i % 128 with
  | 0 => ⟨S256x64x64x31, .f32⟩
  | 1 => ⟨S1024, .f32⟩
  | 2 => ⟨S1024, .f32⟩
  | 3 => ⟨S32x32, .f32⟩
  | 4 => ⟨S1x32x1x32, .f32⟩
  | 5 => ⟨S2x32x2x32, .f32⟩
  | 6 => ⟨S64x64, .f32⟩
  | 7 => ⟨S64x64, .f32⟩
  | 8 => ⟨S0x64, .f32⟩
  | 9 => ⟨S64x64, .f32⟩
  | 10 => ⟨S1x64, .f32⟩
  | 11 => ⟨S63x64, .f32⟩
  | 12 => ⟨S64x64, .f32⟩
  | 13 => ⟨S2x64, .f32⟩
  | 14 => ⟨S62x64, .f32⟩
  | 15 => ⟨S64x64, .f32⟩
  | 16 => ⟨S3x64, .f32⟩
  | 17 => ⟨S61x64, .f32⟩
  | 18 => ⟨S64x64, .f32⟩
  | 19 => ⟨S4x64, .f32⟩
  | 20 => ⟨S60x64, .f32⟩
  | 21 => ⟨S64x64, .f32⟩
  | 22 => ⟨S5x64, .f32⟩
  | 23 => ⟨S59x64, .f32⟩
  | 24 => ⟨S64x64, .f32⟩
  | 25 => ⟨S6x64, .f32⟩
  | 26 => ⟨S58x64, .f32⟩
  | 27 => ⟨S64x64, .f32⟩
  | 28 => ⟨S7x64, .f32⟩
  | 29 => ⟨S57x64, .f32⟩
  | 30 => ⟨S64x64, .f32⟩
  | 31 => ⟨S8x64, .f32⟩
  | 32 => ⟨S56x64, .f32⟩
  | 33 => ⟨S64x64, .f32⟩
  | 34 => ⟨S9x64, .f32⟩
  | 35 => ⟨S55x64, .f32⟩
  | 36 => ⟨S64x64, .f32⟩
  | 37 => ⟨S10x64, .f32⟩
  | 38 => ⟨S54x64, .f32⟩
  | 39 => ⟨S64x64, .f32⟩
  | 40 => ⟨S11x64, .f32⟩
  | 41 => ⟨S53x64, .f32⟩
  | 42 => ⟨S64x64, .f32⟩
  | 43 => ⟨S12x64, .f32⟩
  | 44 => ⟨S52x64, .f32⟩
  | 45 => ⟨S64x64, .f32⟩
  | 46 => ⟨S13x64, .f32⟩
  | 47 => ⟨S51x64, .f32⟩
  | 48 => ⟨S64x64, .f32⟩
  | 49 => ⟨S14x64, .f32⟩
  | 50 => ⟨S50x64, .f32⟩
  | 51 => ⟨S64x64, .f32⟩
  | 52 => ⟨S15x64, .f32⟩
  | 53 => ⟨S49x64, .f32⟩
  | 54 => ⟨S64x64, .f32⟩
  | 55 => ⟨S16x64, .f32⟩
  | 56 => ⟨S48x64, .f32⟩
  | 57 => ⟨S64x64, .f32⟩
  | 58 => ⟨S17x64, .f32⟩
  | 59 => ⟨S47x64, .f32⟩
  | 60 => ⟨S64x64, .f32⟩
  | 61 => ⟨S18x64, .f32⟩
  | 62 => ⟨S46x64, .f32⟩
  | 63 => ⟨S64x64, .f32⟩
  | 64 => ⟨S19x64, .f32⟩
  | 65 => ⟨S45x64, .f32⟩
  | 66 => ⟨S64x64, .f32⟩
  | 67 => ⟨S20x64, .f32⟩
  | 68 => ⟨S44x64, .f32⟩
  | 69 => ⟨S64x64, .f32⟩
  | 70 => ⟨S21x64, .f32⟩
  | 71 => ⟨S43x64, .f32⟩
  | 72 => ⟨S64x64, .f32⟩
  | 73 => ⟨S22x64, .f32⟩
  | 74 => ⟨S42x64, .f32⟩
  | 75 => ⟨S64x64, .f32⟩
  | 76 => ⟨S23x64, .f32⟩
  | 77 => ⟨S41x64, .f32⟩
  | 78 => ⟨S64x64, .f32⟩
  | 79 => ⟨S24x64, .f32⟩
  | 80 => ⟨S40x64, .f32⟩
  | 81 => ⟨S64x64, .f32⟩
  | 82 => ⟨S25x64, .f32⟩
  | 83 => ⟨S39x64, .f32⟩
  | 84 => ⟨S64x64, .f32⟩
  | 85 => ⟨S26x64, .f32⟩
  | 86 => ⟨S38x64, .f32⟩
  | 87 => ⟨S64x64, .f32⟩
  | 88 => ⟨S27x64, .f32⟩
  | 89 => ⟨S37x64, .f32⟩
  | 90 => ⟨S64x64, .f32⟩
  | 91 => ⟨S28x64, .f32⟩
  | 92 => ⟨S36x64, .f32⟩
  | 93 => ⟨S64x64, .f32⟩
  | 94 => ⟨S29x64, .f32⟩
  | 95 => ⟨S35x64, .f32⟩
  | 96 => ⟨S64x64, .f32⟩
  | 97 => ⟨S30x64, .f32⟩
  | 98 => ⟨S34x64, .f32⟩
  | 99 => ⟨S64x64, .f32⟩
  | 100 => ⟨S64x64x1, .f32⟩
  | 101 => ⟨S64x64x1, .f32⟩
  | 102 => ⟨S64x64x1, .f32⟩
  | 103 => ⟨S64x64x1, .f32⟩
  | 104 => ⟨S64x64x1, .f32⟩
  | 105 => ⟨S64x64x1, .f32⟩
  | 106 => ⟨S64x64x1, .f32⟩
  | 107 => ⟨S64x64x1, .f32⟩
  | 108 => ⟨S64x64x1, .f32⟩
  | 109 => ⟨S64x64x1, .f32⟩
  | 110 => ⟨S64x64x1, .f32⟩
  | 111 => ⟨S64x64x1, .f32⟩
  | 112 => ⟨S64x64x1, .f32⟩
  | 113 => ⟨S64x64x1, .f32⟩
  | 114 => ⟨S64x64x1, .f32⟩
  | 115 => ⟨S64x64x1, .f32⟩
  | 116 => ⟨S64x64x1, .f32⟩
  | 117 => ⟨S64x64x1, .f32⟩
  | 118 => ⟨S64x64x1, .f32⟩
  | 119 => ⟨S64x64x1, .f32⟩
  | 120 => ⟨S64x64x1, .f32⟩
  | 121 => ⟨S64x64x1, .f32⟩
  | 122 => ⟨S64x64x1, .f32⟩
  | 123 => ⟨S64x64x1, .f32⟩
  | 124 => ⟨S64x64x1, .f32⟩
  | 125 => ⟨S64x64x1, .f32⟩
  | 126 => ⟨S64x64x1, .f32⟩
  | 127 => ⟨S64x64x1, .f32⟩
  | _ => ⟨S256x64x64x31, .f32⟩

abbrev hbmTy0_1 (i : Nat) : BufTy := match i % 128 with
  | 0 => ⟨S64x64x1, .f32⟩
  | 1 => ⟨S64x64x1, .f32⟩
  | 2 => ⟨S64x64x1, .f32⟩
  | 3 => ⟨S64x64x16, .f32⟩
  | 4 => ⟨S64x64x15, .f32⟩
  | 5 => ⟨S64x64x31, .f32⟩
  | 6 => ⟨S256x64x64, .f32⟩
  | _ => ⟨S256x64x64x31, .f32⟩

abbrev hbmTy (i : Nat) : BufTy := match i / 128 with
  | 0 => hbmTy0_0 i
  | 1 => hbmTy0_1 i
  | _ => ⟨S256x64x64x31, .f32⟩

abbrev bufTy : (tb : Table) → Fin (tcTables nBuf tb) → BufTy
  | .hbm, ⟨i, _⟩ => hbmTy i
  | .local _ .vmem, ⟨0, _⟩ => ⟨S4x64x64x31, .f32⟩
  | .local _ .vmem, ⟨1, _⟩ => ⟨S4x64x64x31, .f32⟩
  | .local _ .vmem, ⟨2, _⟩ => ⟨S64x64x31, .f32⟩
  | .local _ .vmem, ⟨3, _⟩ => ⟨S4x64x64, .f32⟩
  | .local _ .vmem, ⟨4, _⟩ => ⟨S4x64x64, .f32⟩
  | _, _ => ⟨S256x64x64x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_v5 : Ref sig .tc := ⟨.hbm, 9, rfl⟩
abbrev main_call1_v0 : Ref sig .tc := ⟨.hbm, 10, rfl⟩
abbrev main_call1_v1 : Ref sig .tc := ⟨.hbm, 11, rfl⟩
abbrev main_v6 : Ref sig .tc := ⟨.hbm, 12, rfl⟩
abbrev main_call2_v0 : Ref sig .tc := ⟨.hbm, 13, rfl⟩
abbrev main_call2_v1 : Ref sig .tc := ⟨.hbm, 14, rfl⟩
abbrev main_v7 : Ref sig .tc := ⟨.hbm, 15, rfl⟩
abbrev main_call3_v0 : Ref sig .tc := ⟨.hbm, 16, rfl⟩
abbrev main_call3_v1 : Ref sig .tc := ⟨.hbm, 17, rfl⟩
abbrev main_v8 : Ref sig .tc := ⟨.hbm, 18, rfl⟩
abbrev main_call4_v0 : Ref sig .tc := ⟨.hbm, 19, rfl⟩
abbrev main_call4_v1 : Ref sig .tc := ⟨.hbm, 20, rfl⟩
abbrev main_v9 : Ref sig .tc := ⟨.hbm, 21, rfl⟩
abbrev main_call5_v0 : Ref sig .tc := ⟨.hbm, 22, rfl⟩
abbrev main_call5_v1 : Ref sig .tc := ⟨.hbm, 23, rfl⟩
abbrev main_v10 : Ref sig .tc := ⟨.hbm, 24, rfl⟩
abbrev main_call6_v0 : Ref sig .tc := ⟨.hbm, 25, rfl⟩
abbrev main_call6_v1 : Ref sig .tc := ⟨.hbm, 26, rfl⟩
abbrev main_v11 : Ref sig .tc := ⟨.hbm, 27, rfl⟩
abbrev main_call7_v0 : Ref sig .tc := ⟨.hbm, 28, rfl⟩
abbrev main_call7_v1 : Ref sig .tc := ⟨.hbm, 29, rfl⟩
abbrev main_v12 : Ref sig .tc := ⟨.hbm, 30, rfl⟩
abbrev main_call8_v0 : Ref sig .tc := ⟨.hbm, 31, rfl⟩
abbrev main_call8_v1 : Ref sig .tc := ⟨.hbm, 32, rfl⟩
abbrev main_v13 : Ref sig .tc := ⟨.hbm, 33, rfl⟩
abbrev main_call9_v0 : Ref sig .tc := ⟨.hbm, 34, rfl⟩
abbrev main_call9_v1 : Ref sig .tc := ⟨.hbm, 35, rfl⟩
abbrev main_v14 : Ref sig .tc := ⟨.hbm, 36, rfl⟩
abbrev main_call10_v0 : Ref sig .tc := ⟨.hbm, 37, rfl⟩
abbrev main_call10_v1 : Ref sig .tc := ⟨.hbm, 38, rfl⟩
abbrev main_v15 : Ref sig .tc := ⟨.hbm, 39, rfl⟩
abbrev main_call11_v0 : Ref sig .tc := ⟨.hbm, 40, rfl⟩
abbrev main_call11_v1 : Ref sig .tc := ⟨.hbm, 41, rfl⟩
abbrev main_v16 : Ref sig .tc := ⟨.hbm, 42, rfl⟩
abbrev main_call12_v0 : Ref sig .tc := ⟨.hbm, 43, rfl⟩
abbrev main_call12_v1 : Ref sig .tc := ⟨.hbm, 44, rfl⟩
abbrev main_v17 : Ref sig .tc := ⟨.hbm, 45, rfl⟩
abbrev main_call13_v0 : Ref sig .tc := ⟨.hbm, 46, rfl⟩
abbrev main_call13_v1 : Ref sig .tc := ⟨.hbm, 47, rfl⟩
abbrev main_v18 : Ref sig .tc := ⟨.hbm, 48, rfl⟩
abbrev main_call14_v0 : Ref sig .tc := ⟨.hbm, 49, rfl⟩
abbrev main_call14_v1 : Ref sig .tc := ⟨.hbm, 50, rfl⟩
abbrev main_v19 : Ref sig .tc := ⟨.hbm, 51, rfl⟩
abbrev main_call15_v0 : Ref sig .tc := ⟨.hbm, 52, rfl⟩
abbrev main_call15_v1 : Ref sig .tc := ⟨.hbm, 53, rfl⟩
abbrev main_v20 : Ref sig .tc := ⟨.hbm, 54, rfl⟩
abbrev main_call16_v0 : Ref sig .tc := ⟨.hbm, 55, rfl⟩
abbrev main_call16_v1 : Ref sig .tc := ⟨.hbm, 56, rfl⟩
abbrev main_v21 : Ref sig .tc := ⟨.hbm, 57, rfl⟩
abbrev main_call17_v0 : Ref sig .tc := ⟨.hbm, 58, rfl⟩
abbrev main_call17_v1 : Ref sig .tc := ⟨.hbm, 59, rfl⟩
abbrev main_v22 : Ref sig .tc := ⟨.hbm, 60, rfl⟩
abbrev main_call18_v0 : Ref sig .tc := ⟨.hbm, 61, rfl⟩
abbrev main_call18_v1 : Ref sig .tc := ⟨.hbm, 62, rfl⟩
abbrev main_v23 : Ref sig .tc := ⟨.hbm, 63, rfl⟩
abbrev main_call19_v0 : Ref sig .tc := ⟨.hbm, 64, rfl⟩
abbrev main_call19_v1 : Ref sig .tc := ⟨.hbm, 65, rfl⟩
abbrev main_v24 : Ref sig .tc := ⟨.hbm, 66, rfl⟩
abbrev main_call20_v0 : Ref sig .tc := ⟨.hbm, 67, rfl⟩
abbrev main_call20_v1 : Ref sig .tc := ⟨.hbm, 68, rfl⟩
abbrev main_v25 : Ref sig .tc := ⟨.hbm, 69, rfl⟩
abbrev main_call21_v0 : Ref sig .tc := ⟨.hbm, 70, rfl⟩
abbrev main_call21_v1 : Ref sig .tc := ⟨.hbm, 71, rfl⟩
abbrev main_v26 : Ref sig .tc := ⟨.hbm, 72, rfl⟩
abbrev main_call22_v0 : Ref sig .tc := ⟨.hbm, 73, rfl⟩
abbrev main_call22_v1 : Ref sig .tc := ⟨.hbm, 74, rfl⟩
abbrev main_v27 : Ref sig .tc := ⟨.hbm, 75, rfl⟩
abbrev main_call23_v0 : Ref sig .tc := ⟨.hbm, 76, rfl⟩
abbrev main_call23_v1 : Ref sig .tc := ⟨.hbm, 77, rfl⟩
abbrev main_v28 : Ref sig .tc := ⟨.hbm, 78, rfl⟩
abbrev main_call24_v0 : Ref sig .tc := ⟨.hbm, 79, rfl⟩
abbrev main_call24_v1 : Ref sig .tc := ⟨.hbm, 80, rfl⟩
abbrev main_v29 : Ref sig .tc := ⟨.hbm, 81, rfl⟩
abbrev main_call25_v0 : Ref sig .tc := ⟨.hbm, 82, rfl⟩
abbrev main_call25_v1 : Ref sig .tc := ⟨.hbm, 83, rfl⟩
abbrev main_v30 : Ref sig .tc := ⟨.hbm, 84, rfl⟩
abbrev main_call26_v0 : Ref sig .tc := ⟨.hbm, 85, rfl⟩
abbrev main_call26_v1 : Ref sig .tc := ⟨.hbm, 86, rfl⟩
abbrev main_v31 : Ref sig .tc := ⟨.hbm, 87, rfl⟩
abbrev main_call27_v0 : Ref sig .tc := ⟨.hbm, 88, rfl⟩
abbrev main_call27_v1 : Ref sig .tc := ⟨.hbm, 89, rfl⟩
abbrev main_v32 : Ref sig .tc := ⟨.hbm, 90, rfl⟩
abbrev main_call28_v0 : Ref sig .tc := ⟨.hbm, 91, rfl⟩
abbrev main_call28_v1 : Ref sig .tc := ⟨.hbm, 92, rfl⟩
abbrev main_v33 : Ref sig .tc := ⟨.hbm, 93, rfl⟩
abbrev main_call29_v0 : Ref sig .tc := ⟨.hbm, 94, rfl⟩
abbrev main_call29_v1 : Ref sig .tc := ⟨.hbm, 95, rfl⟩
abbrev main_v34 : Ref sig .tc := ⟨.hbm, 96, rfl⟩
abbrev main_call30_v0 : Ref sig .tc := ⟨.hbm, 97, rfl⟩
abbrev main_call30_v1 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x64x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S32x32 : S1024.ShapeCasts S32x32
  shapeCasts_S32x32_S1x32x1x32 : S32x32.ShapeCasts S1x32x1x32
  bcast_S1x32x1x32_S2x32x2x32_0_1_2_3 : S1x32x1x32.BroadcastsInDim S2x32x2x32 (![0, 1, 2, 3] : Fin 4 → Fin S2x32x2x32.rank)
  shapeCasts_S2x32x2x32_S64x64 : S2x32x2x32.ShapeCasts S64x64
  slices_S64x64_S64x64_0_0 : S64x64.Slices ![0, 0] S64x64
  slices_S64x64_S0x64_0_0 : S64x64.Slices ![0, 0] S0x64
  concatenates_S64x64_S0x64_S64x64_d0 : Shape.Concatenates [S64x64, S0x64] S64x64 0
  slices_S64x64_S1x64_63_0 : S64x64.Slices ![63, 0] S1x64
  slices_S64x64_S63x64_0_0 : S64x64.Slices ![0, 0] S63x64
  concatenates_S1x64_S63x64_S64x64_d0 : Shape.Concatenates [S1x64, S63x64] S64x64 0
  slices_S64x64_S2x64_62_0 : S64x64.Slices ![62, 0] S2x64
  slices_S64x64_S62x64_0_0 : S64x64.Slices ![0, 0] S62x64
  concatenates_S2x64_S62x64_S64x64_d0 : Shape.Concatenates [S2x64, S62x64] S64x64 0
  slices_S64x64_S3x64_61_0 : S64x64.Slices ![61, 0] S3x64
  slices_S64x64_S61x64_0_0 : S64x64.Slices ![0, 0] S61x64
  concatenates_S3x64_S61x64_S64x64_d0 : Shape.Concatenates [S3x64, S61x64] S64x64 0
  slices_S64x64_S4x64_60_0 : S64x64.Slices ![60, 0] S4x64
  slices_S64x64_S60x64_0_0 : S64x64.Slices ![0, 0] S60x64
  concatenates_S4x64_S60x64_S64x64_d0 : Shape.Concatenates [S4x64, S60x64] S64x64 0
  slices_S64x64_S5x64_59_0 : S64x64.Slices ![59, 0] S5x64
  slices_S64x64_S59x64_0_0 : S64x64.Slices ![0, 0] S59x64
  concatenates_S5x64_S59x64_S64x64_d0 : Shape.Concatenates [S5x64, S59x64] S64x64 0
  slices_S64x64_S6x64_58_0 : S64x64.Slices ![58, 0] S6x64
  slices_S64x64_S58x64_0_0 : S64x64.Slices ![0, 0] S58x64
  concatenates_S6x64_S58x64_S64x64_d0 : Shape.Concatenates [S6x64, S58x64] S64x64 0
  slices_S64x64_S7x64_57_0 : S64x64.Slices ![57, 0] S7x64
  slices_S64x64_S57x64_0_0 : S64x64.Slices ![0, 0] S57x64
  concatenates_S7x64_S57x64_S64x64_d0 : Shape.Concatenates [S7x64, S57x64] S64x64 0
  slices_S64x64_S8x64_56_0 : S64x64.Slices ![56, 0] S8x64
  slices_S64x64_S56x64_0_0 : S64x64.Slices ![0, 0] S56x64
  concatenates_S8x64_S56x64_S64x64_d0 : Shape.Concatenates [S8x64, S56x64] S64x64 0
  slices_S64x64_S9x64_55_0 : S64x64.Slices ![55, 0] S9x64
  slices_S64x64_S55x64_0_0 : S64x64.Slices ![0, 0] S55x64
  concatenates_S9x64_S55x64_S64x64_d0 : Shape.Concatenates [S9x64, S55x64] S64x64 0
  slices_S64x64_S10x64_54_0 : S64x64.Slices ![54, 0] S10x64
  slices_S64x64_S54x64_0_0 : S64x64.Slices ![0, 0] S54x64
  concatenates_S10x64_S54x64_S64x64_d0 : Shape.Concatenates [S10x64, S54x64] S64x64 0
  slices_S64x64_S11x64_53_0 : S64x64.Slices ![53, 0] S11x64
  slices_S64x64_S53x64_0_0 : S64x64.Slices ![0, 0] S53x64
  concatenates_S11x64_S53x64_S64x64_d0 : Shape.Concatenates [S11x64, S53x64] S64x64 0
  slices_S64x64_S12x64_52_0 : S64x64.Slices ![52, 0] S12x64
  slices_S64x64_S52x64_0_0 : S64x64.Slices ![0, 0] S52x64
  concatenates_S12x64_S52x64_S64x64_d0 : Shape.Concatenates [S12x64, S52x64] S64x64 0
  slices_S64x64_S13x64_51_0 : S64x64.Slices ![51, 0] S13x64
  slices_S64x64_S51x64_0_0 : S64x64.Slices ![0, 0] S51x64
  concatenates_S13x64_S51x64_S64x64_d0 : Shape.Concatenates [S13x64, S51x64] S64x64 0
  slices_S64x64_S14x64_50_0 : S64x64.Slices ![50, 0] S14x64
  slices_S64x64_S50x64_0_0 : S64x64.Slices ![0, 0] S50x64
  concatenates_S14x64_S50x64_S64x64_d0 : Shape.Concatenates [S14x64, S50x64] S64x64 0
  slices_S64x64_S15x64_49_0 : S64x64.Slices ![49, 0] S15x64
  slices_S64x64_S49x64_0_0 : S64x64.Slices ![0, 0] S49x64
  concatenates_S15x64_S49x64_S64x64_d0 : Shape.Concatenates [S15x64, S49x64] S64x64 0
  slices_S64x64_S16x64_48_0 : S64x64.Slices ![48, 0] S16x64
  slices_S64x64_S48x64_0_0 : S64x64.Slices ![0, 0] S48x64
  concatenates_S16x64_S48x64_S64x64_d0 : Shape.Concatenates [S16x64, S48x64] S64x64 0
  slices_S64x64_S17x64_47_0 : S64x64.Slices ![47, 0] S17x64
  slices_S64x64_S47x64_0_0 : S64x64.Slices ![0, 0] S47x64
  concatenates_S17x64_S47x64_S64x64_d0 : Shape.Concatenates [S17x64, S47x64] S64x64 0
  slices_S64x64_S18x64_46_0 : S64x64.Slices ![46, 0] S18x64
  slices_S64x64_S46x64_0_0 : S64x64.Slices ![0, 0] S46x64
  concatenates_S18x64_S46x64_S64x64_d0 : Shape.Concatenates [S18x64, S46x64] S64x64 0
  slices_S64x64_S19x64_45_0 : S64x64.Slices ![45, 0] S19x64
  slices_S64x64_S45x64_0_0 : S64x64.Slices ![0, 0] S45x64
  concatenates_S19x64_S45x64_S64x64_d0 : Shape.Concatenates [S19x64, S45x64] S64x64 0
  slices_S64x64_S20x64_44_0 : S64x64.Slices ![44, 0] S20x64
  slices_S64x64_S44x64_0_0 : S64x64.Slices ![0, 0] S44x64
  concatenates_S20x64_S44x64_S64x64_d0 : Shape.Concatenates [S20x64, S44x64] S64x64 0
  slices_S64x64_S21x64_43_0 : S64x64.Slices ![43, 0] S21x64
  slices_S64x64_S43x64_0_0 : S64x64.Slices ![0, 0] S43x64
  concatenates_S21x64_S43x64_S64x64_d0 : Shape.Concatenates [S21x64, S43x64] S64x64 0
  slices_S64x64_S22x64_42_0 : S64x64.Slices ![42, 0] S22x64
  slices_S64x64_S42x64_0_0 : S64x64.Slices ![0, 0] S42x64
  concatenates_S22x64_S42x64_S64x64_d0 : Shape.Concatenates [S22x64, S42x64] S64x64 0
  slices_S64x64_S23x64_41_0 : S64x64.Slices ![41, 0] S23x64
  slices_S64x64_S41x64_0_0 : S64x64.Slices ![0, 0] S41x64
  concatenates_S23x64_S41x64_S64x64_d0 : Shape.Concatenates [S23x64, S41x64] S64x64 0
  slices_S64x64_S24x64_40_0 : S64x64.Slices ![40, 0] S24x64
  slices_S64x64_S40x64_0_0 : S64x64.Slices ![0, 0] S40x64
  concatenates_S24x64_S40x64_S64x64_d0 : Shape.Concatenates [S24x64, S40x64] S64x64 0
  slices_S64x64_S25x64_39_0 : S64x64.Slices ![39, 0] S25x64
  slices_S64x64_S39x64_0_0 : S64x64.Slices ![0, 0] S39x64
  concatenates_S25x64_S39x64_S64x64_d0 : Shape.Concatenates [S25x64, S39x64] S64x64 0
  slices_S64x64_S26x64_38_0 : S64x64.Slices ![38, 0] S26x64
  slices_S64x64_S38x64_0_0 : S64x64.Slices ![0, 0] S38x64
  concatenates_S26x64_S38x64_S64x64_d0 : Shape.Concatenates [S26x64, S38x64] S64x64 0
  slices_S64x64_S27x64_37_0 : S64x64.Slices ![37, 0] S27x64
  slices_S64x64_S37x64_0_0 : S64x64.Slices ![0, 0] S37x64
  concatenates_S27x64_S37x64_S64x64_d0 : Shape.Concatenates [S27x64, S37x64] S64x64 0
  slices_S64x64_S28x64_36_0 : S64x64.Slices ![36, 0] S28x64
  slices_S64x64_S36x64_0_0 : S64x64.Slices ![0, 0] S36x64
  concatenates_S28x64_S36x64_S64x64_d0 : Shape.Concatenates [S28x64, S36x64] S64x64 0
  slices_S64x64_S29x64_35_0 : S64x64.Slices ![35, 0] S29x64
  slices_S64x64_S35x64_0_0 : S64x64.Slices ![0, 0] S35x64
  concatenates_S29x64_S35x64_S64x64_d0 : Shape.Concatenates [S29x64, S35x64] S64x64 0
  slices_S64x64_S30x64_34_0 : S64x64.Slices ![34, 0] S30x64
  slices_S64x64_S34x64_0_0 : S64x64.Slices ![0, 0] S34x64
  concatenates_S30x64_S34x64_S64x64_d0 : Shape.Concatenates [S30x64, S34x64] S64x64 0
  bcast_S64x64_S64x64x1_0_1 : S64x64.BroadcastsInDim S64x64x1 (![0, 1] : Fin 2 → Fin S64x64x1.rank)
  concatenates_S64x64x1_S64x64x1_S64x64x1_S64x64x1_S64x64x1_S64x64x1_S64x64x1_S64x64x1_S64x64x1_S64x64x1_S64x64x1_S64x64x1_S64x64x1_S64x64x1_S64x64x1_S64x64x1_S64x64x16_d2 : Shape.Concatenates [S64x64x1, S64x64x1, S64x64x1, S64x64x1, S64x64x1, S64x64x1, S64x64x1, S64x64x1, S64x64x1, S64x64x1, S64x64x1, S64x64x1, S64x64x1, S64x64x1, S64x64x1, S64x64x1] S64x64x16 2
  concatenates_S64x64x1_S64x64x1_S64x64x1_S64x64x1_S64x64x1_S64x64x1_S64x64x1_S64x64x1_S64x64x1_S64x64x1_S64x64x1_S64x64x1_S64x64x1_S64x64x1_S64x64x1_S64x64x15_d2 : Shape.Concatenates [S64x64x1, S64x64x1, S64x64x1, S64x64x1, S64x64x1, S64x64x1, S64x64x1, S64x64x1, S64x64x1, S64x64x1, S64x64x1, S64x64x1, S64x64x1, S64x64x1, S64x64x1] S64x64x15 2
  concatenates_S64x64x16_S64x64x15_S64x64x31_d2 : Shape.Concatenates [S64x64x16, S64x64x15] S64x64x31 2
  inb_S4x64x64x31_S4x64x64x31_0_0_0_0 : ∀ a, (![0, 0, 0, 0] : Fin 4 → Nat) a + S4x64x64x31.size a ≤ S4x64x64x31.size a
  h_S4x64x64x31 : 0 < S4x64x64x31.numel
  inb_S64x64x31_S64x64x31_0_0_0 : ∀ a, (![0, 0, 0] : Fin 3 → Nat) a + S64x64x31.size a ≤ S64x64x31.size a
  h_S64x64x31 : 0 < S64x64x31.numel
  shapeCasts_S64x64x31_S64x64x31 : S64x64x31.ShapeCasts S64x64x31
  shapeCasts_S64x64x31_S1x64x64x31 : S64x64x31.ShapeCasts S1x64x64x31
  broadcasts_S1x64x64x31_S4x64x64x31 : S1x64x64x31.Broadcasts S4x64x64x31
  reduces_S4x64x64x31_S4x64x64 : S4x64x64x31.Reduces [3] S4x64x64
  inb_S4x64x64_S4x64x64_0_0_0 : ∀ a, (![0, 0, 0] : Fin 3 → Nat) a + S4x64x64.size a ≤ S4x64x64.size a
  h_S4x64x64 : 0 < S4x64x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x64x31.size a ≤ S256x64x64x31.size a
  hwx0_0 : ∀ i : grid0.Coords, EltTy.bits .f32 = 32 ∨ (Rect.block (s := S256x64x64x31) S4x64x64x31.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64x31.size a ≤ S64x64x31.size a
  hwx0_1 : ∀ i : grid0.Coords, EltTy.bits .f32 = 32 ∨ (Rect.block (s := S64x64x31) S64x64x31.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S256x64x64.size a
  hwx0_2 : ∀ i : grid0.Coords, EltTy.bits .f32 = 32 ∨ (Rect.block (s := S256x64x64) S4x64x64.size (cc0_transform_2 i) (hinb0_2 i)).WholeWords (EltTy.packing .f32)

variable [Facts₀]

abbrev win0_0 : Pipeline.Window sig grid0 :=
  Pipeline.Window.ofSpec (Memref.whole main_arg0) S4x64x64x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S64x64x31.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S4x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x64x64x31 : Shape := ⟨4, ![256, 64, 64, 31]⟩
abbrev S1024 : Shape := ⟨1, ![1024]⟩
abbrev S64 : Shape := ⟨1, ![64]⟩
abbrev S31 : Shape := ⟨1, ![31]⟩
abbrev S64x1 : Shape := ⟨2, ![64, 1]⟩
abbrev S1x31 : Shape := ⟨2, ![1, 31]⟩
abbrev S64x31 : Shape := ⟨2, ![64, 31]⟩
abbrev S_ : Shape := ⟨0, ![]⟩
abbrev S1x64x1x31 : Shape := ⟨4, ![1, 64, 1, 31]⟩
abbrev S256x64x64x31x1 : Shape := ⟨5, ![256, 64, 64, 31, 1]⟩
abbrev S1 : Shape := ⟨1, ![1]⟩
abbrev S1x1x1x1x1 : Shape := ⟨5, ![1, 1, 1, 1, 1]⟩
abbrev S32x32 : Shape := ⟨2, ![32, 32]⟩
abbrev S1x32x1x32 : Shape := ⟨4, ![1, 32, 1, 32]⟩
abbrev S2x32x2x32 : Shape := ⟨4, ![2, 32, 2, 32]⟩
abbrev S64x64 : Shape := ⟨2, ![64, 64]⟩
abbrev S1x64x64x1 : Shape := ⟨4, ![1, 64, 64, 1]⟩
abbrev S256x64x64 : Shape := ⟨3, ![256, 64, 64]⟩

abbrev nBuf : Space → Nat
  | .hbm => 116
  | .vmem => 0
  | .smem => 0
  | _ => 0

abbrev bufTy : (tb : Table) → Fin (tcTables nBuf tb) → BufTy
  | .hbm, ⟨0, _⟩ => ⟨S256x64x64x31, .f32⟩
  | .hbm, ⟨1, _⟩ => ⟨S1024, .f32⟩
  | .hbm, ⟨2, _⟩ => ⟨S64, .i32⟩
  | .hbm, ⟨3, _⟩ => ⟨S31, .i32⟩
  | .hbm, ⟨4, _⟩ => ⟨S64x1, .i32⟩
  | .hbm, ⟨5, _⟩ => ⟨S1x31, .i32⟩
  | .hbm, ⟨6, _⟩ => ⟨S64x31, .i32⟩
  | .hbm, ⟨7, _⟩ => ⟨S64x31, .i32⟩
  | .hbm, ⟨8, _⟩ => ⟨S64x31, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S64x31, .i32⟩
  | .hbm, ⟨16, _⟩ => ⟨S64x31, .i32⟩
  | .hbm, ⟨17, _⟩ => ⟨S_, .i32⟩
  | .hbm, ⟨18, _⟩ => ⟨S64x31, .i32⟩
  | .hbm, ⟨19, _⟩ => ⟨S64x31, .i1⟩
  | .hbm, ⟨20, _⟩ => ⟨S_, .i32⟩
  | .hbm, ⟨21, _⟩ => ⟨S64x31, .i32⟩
  | .hbm, ⟨22, _⟩ => ⟨S64x31, .i1⟩
  | .hbm, ⟨23, _⟩ => ⟨S_, .i32⟩
  | .hbm, ⟨24, _⟩ => ⟨S_, .i1⟩
  | .hbm, ⟨25, _⟩ => ⟨S64x31, .i1⟩
  | .hbm, ⟨26, _⟩ => ⟨S64x31, .i1⟩
  | .hbm, ⟨27, _⟩ => ⟨S64x31, .i1⟩
  | .hbm, ⟨28, _⟩ => ⟨S64x31, .i32⟩
  | .hbm, ⟨29, _⟩ => ⟨S64x31, .i32⟩
  | .hbm, ⟨30, _⟩ => ⟨S64x31, .i32⟩
  | .hbm, ⟨31, _⟩ => ⟨S1x64x1x31, .i32⟩
  | .hbm, ⟨32, _⟩ => ⟨S256x64x64x31, .i32⟩
  | .hbm, ⟨33, _⟩ => ⟨S_, .i32⟩
  | .hbm, ⟨34, _⟩ => ⟨S256x64x64x31, .i32⟩
  | .hbm, ⟨35, _⟩ => ⟨S256x64x64x31, .i1⟩
  | .hbm, ⟨36, _⟩ => ⟨S_, .i32⟩
  | .hbm, ⟨37, _⟩ => ⟨S256x64x64x31, .i32⟩
  | .hbm, ⟨38, _⟩ => ⟨S256x64x64x31, .i32⟩
  | .hbm, ⟨39, _⟩ => ⟨S256x64x64x31, .i32⟩
  | .hbm, ⟨40, _⟩ => ⟨S256x64x64x31x1, .i32⟩
  | .hbm, ⟨41, _⟩ => ⟨S1, .i32⟩
  | .hbm, ⟨42, _⟩ => ⟨S_, .i32⟩
  | .hbm, ⟨43, _⟩ => ⟨S256x64x64x31x1, .i32⟩
  | .hbm, ⟨44, _⟩ => ⟨S256x64x64x31x1, .i1⟩
  | .hbm, ⟨45, _⟩ => ⟨S1x1x1x1x1, .i32⟩
  | .hbm, ⟨46, _⟩ => ⟨S256x64x64x31x1, .i32⟩
  | .hbm, ⟨47, _⟩ => ⟨S256x64x64x31x1, .i1⟩
  | .hbm, ⟨48, _⟩ => ⟨S256x64x64x31x1, .i1⟩
  | .hbm, ⟨49, _⟩ => ⟨S_, .i1⟩
  | .hbm, ⟨50, _⟩ => ⟨S256x64x64x31, .i1⟩
  | .hbm, ⟨51, _⟩ => ⟨S256x64x64x31, .f32⟩
  | .hbm, ⟨52, _⟩ => ⟨S_, .f32⟩
  | .hbm, ⟨53, _⟩ => ⟨S256x64x64x31, .f32⟩
  | .hbm, ⟨54, _⟩ => ⟨S256x64x64x31, .f32⟩
  | .hbm, ⟨55, _⟩ => ⟨S1024, .f32⟩
  | .hbm, ⟨56, _⟩ => ⟨S32x32, .f32⟩
  | .hbm, ⟨57, _⟩ => ⟨S1x32x1x32, .f32⟩
  | .hbm, ⟨58, _⟩ => ⟨S2x32x2x32, .f32⟩
  | .hbm, ⟨59, _⟩ => ⟨S64x64, .f32⟩
  | .hbm, ⟨60, _⟩ => ⟨S1x64x64x1, .f32⟩
  | .hbm, ⟨61, _⟩ => ⟨S256x64x64x31, .f32⟩
  | .hbm, ⟨62, _⟩ => ⟨S256x64x64x31, .f32⟩
  | .hbm, ⟨63, _⟩ => ⟨S64x1, .i32⟩
  | .hbm, ⟨64, _⟩ => ⟨S1x31, .i32⟩
  | .hbm, ⟨65, _⟩ => ⟨S64x31, .i32⟩
  | .hbm, ⟨66, _⟩ => ⟨S64x31, .i32⟩
  | .hbm, ⟨67, _⟩ => ⟨S64x31, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S64x31, .i32⟩
  | .hbm, ⟨75, _⟩ => ⟨S64x31, .i32⟩
  | .hbm, ⟨76, _⟩ => ⟨S_, .i32⟩
  | .hbm, ⟨77, _⟩ => ⟨S64x31, .i32⟩
  | .hbm, ⟨78, _⟩ => ⟨S64x31, .i1⟩
  | .hbm, ⟨79, _⟩ => ⟨S_, .i32⟩
  | .hbm, ⟨80, _⟩ => ⟨S64x31, .i32⟩
  | .hbm, ⟨81, _⟩ => ⟨S64x31, .i1⟩
  | .hbm, ⟨82, _⟩ => ⟨S_, .i32⟩
  | .hbm, ⟨83, _⟩ => ⟨S_, .i1⟩
  | .hbm, ⟨84, _⟩ => ⟨S64x31, .i1⟩
  | .hbm, ⟨85, _⟩ => ⟨S64x31, .i1⟩
  | .hbm, ⟨86, _⟩ => ⟨S64x31, .i1⟩
  | .hbm, ⟨87, _⟩ => ⟨S64x31, .i32⟩
  | .hbm, ⟨88, _⟩ => ⟨S64x31, .i32⟩
  | .hbm, ⟨89, _⟩ => ⟨S64x31, .i32⟩
  | .hbm, ⟨90, _⟩ => ⟨S1x64x1x31, .i32⟩
  | .hbm, ⟨91, _⟩ => ⟨S256x64x64x31, .i32⟩
  | .hbm, ⟨92, _⟩ => ⟨S_, .i32⟩
  | .hbm, ⟨93, _⟩ => ⟨S256x64x64x31, .i32⟩
  | .hbm, ⟨94, _⟩ => ⟨S256x64x64x31, .i1⟩
  | .hbm, ⟨95, _⟩ => ⟨S_, .i32⟩
  | .hbm, ⟨96, _⟩ => ⟨S256x64x64x31, .i32⟩
  | .hbm, ⟨97, _⟩ => ⟨S256x64x64x31, .i32⟩
  | .hbm, ⟨98, _⟩ => ⟨S256x64x64x31, .i32⟩
  | .hbm, ⟨99, _⟩ => ⟨S256x64x64x31x1, .i32⟩
  | .hbm, ⟨100, _⟩ => ⟨S1, .i32⟩
  | .hbm, ⟨101, _⟩ => ⟨S_, .i32⟩
  | .hbm, ⟨102, _⟩ => ⟨S256x64x64x31x1, .i32⟩
  | .hbm, ⟨103, _⟩ => ⟨S256x64x64x31x1, .i1⟩
  | .hbm, ⟨104, _⟩ => ⟨S1x1x1x1x1, .i32⟩
  | .hbm, ⟨105, _⟩ => ⟨S256x64x64x31x1, .i32⟩
  | .hbm, ⟨106, _⟩ => ⟨S256x64x64x31x1, .i1⟩
  | .hbm, ⟨107, _⟩ => ⟨S256x64x64x31x1, .i1⟩
  | .hbm, ⟨108, _⟩ => ⟨S_, .i1⟩
  | .hbm, ⟨109, _⟩ => ⟨S256x64x64x31, .i1⟩
  | .hbm, ⟨110, _⟩ => ⟨S256x64x64x31, .f32⟩
  | .hbm, ⟨111, _⟩ => ⟨S_, .f32⟩
  | .hbm, ⟨112, _⟩ => ⟨S256x64x64x31, .f32⟩
  | .hbm, ⟨113, _⟩ => ⟨S256x64x64x31, .f32⟩
  | .hbm, ⟨114, _⟩ => ⟨S_, .f32⟩
  | .hbm, ⟨115, _⟩ => ⟨S256x64x64, .f32⟩
  | _, _ => ⟨S256x64x64x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c_0 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_1 : Ref sig .tc := ⟨.hbm, 76, rfl⟩
abbrev main_call2_v5 : Ref sig .tc := ⟨.hbm, 77, rfl⟩
abbrev main_call2_v6 : Ref sig .tc := ⟨.hbm, 78, rfl⟩
abbrev main_call2_c_2 : Ref sig .tc := ⟨.hbm, 79, rfl⟩
abbrev main_call2_v7 : Ref sig .tc := ⟨.hbm, 80, rfl⟩
abbrev main_call2_v8 : Ref sig .tc := ⟨.hbm, 81, rfl⟩
abbrev main_call2_c_3 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v27 : Ref sig .tc := ⟨.hbm, 113, rfl⟩
abbrev main_cst : Ref sig .tc := ⟨.hbm, 114, rfl⟩
abbrev main_v28 : Ref sig .tc := ⟨.hbm, 115, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S31_S1x31_1 : S31.BroadcastsInDim S1x31 (![1] : Fin 1 → Fin S1x31.rank)
  bcast_S64x1_S64x31_0_1 : S64x1.BroadcastsInDim S64x31 (![0, 1] : Fin 2 → Fin S64x31.rank)
  bcast_S1x31_S64x31_0_1 : S1x31.BroadcastsInDim S64x31 (![0, 1] : Fin 2 → Fin S64x31.rank)
  bcast_S_S64x31 : S_.BroadcastsInDim S64x31 (![] : Fin 0 → Fin S64x31.rank)
  bcast_S64x31_S1x64x1x31_1_3 : S64x31.BroadcastsInDim S1x64x1x31 (![1, 3] : Fin 2 → Fin S1x64x1x31.rank)
  bcast_S1x64x1x31_S256x64x64x31_0_1_2_3 : S1x64x1x31.BroadcastsInDim S256x64x64x31 (![0, 1, 2, 3] : Fin 4 → Fin S256x64x64x31.rank)
  bcast_S_S256x64x64x31 : S_.BroadcastsInDim S256x64x64x31 (![] : Fin 0 → Fin S256x64x64x31.rank)
  shapeCasts_S256x64x64x31_S256x64x64x31x1 : S256x64x64x31.ShapeCasts S256x64x64x31x1
  bcast_S_S256x64x64x31x1 : S_.BroadcastsInDim S256x64x64x31x1 (![] : Fin 0 → Fin S256x64x64x31x1.rank)
  bcast_S1_S1x1x1x1x1_4 : S1.BroadcastsInDim S1x1x1x1x1 (![4] : Fin 1 → Fin S1x1x1x1x1.rank)
  bcast_S1x1x1x1x1_S256x64x64x31x1_0_1_2_3_4 : S1x1x1x1x1.BroadcastsInDim S256x64x64x31x1 (![0, 1, 2, 3, 4] : Fin 5 → Fin S256x64x64x31x1.rank)
  reducesTo_S256x64x64x31x1_S256x64x64x31_d4 : S256x64x64x31x1.ReducesTo [4] S256x64x64x31
  h_S_ : 0 < S_.numel
  shapeCasts_S1024_S32x32 : S1024.ShapeCasts S32x32
  shapeCasts_S32x32_S1x32x1x32 : S32x32.ShapeCasts S1x32x1x32
  bcast_S1x32x1x32_S2x32x2x32_0_1_2_3 : S1x32x1x32.BroadcastsInDim S2x32x2x32 (![0, 1, 2, 3] : Fin 4 → Fin S2x32x2x32.rank)
  shapeCasts_S2x32x2x32_S64x64 : S2x32x2x32.ShapeCasts S64x64
  bcast_S64x64_S1x64x64x1_1_2 : S64x64.BroadcastsInDim S1x64x64x1 (![1, 2] : Fin 2 → Fin S1x64x64x1.rank)
  bcast_S1x64x64x1_S256x64x64x31_0_1_2_3 : S1x64x64x1.BroadcastsInDim S256x64x64x31 (![0, 1, 2, 3] : Fin 4 → Fin S256x64x64x31.rank)
  reducesTo_S256x64x64x31_S256x64x64_d3 : S256x64x64x31.ReducesTo [3] S256x64x64
  gather_S256x64x64x31_S256x64x64x31x1_S256x64x64x31_n_1_023_023_1_4_1111_wf : GatherDims.WF S256x64x64x31 S256x64x64x31x1 S256x64x64x31 [] [1] [0, 2, 3] [1] [0, 2, 3] 4 ![1, 1, 1, 1]

variable [Facts₀]

def gather_S256x64x64x31_S256x64x64x31x1_S256x64x64x31_n_1_023_023_1_4_1111 : GatherDims S256x64x64x31 S256x64x64x31x1 S256x64x64x31 where
  offsetDims := []
  collapsedSliceDims := [1]
  operandBatchingDims := [0, 2, 3]
  startIndicesBatchingDims := [0, 2, 3]
  startIndexMap := [1]
  indexVectorDim := 4
  sliceSizes := ![1, 1, 1, 1]
  wf := gather_S256x64x64x31_S256x64x64x31x1_S256x64x64x31_n_1_023_023_1_4_1111_wf

class Facts : Prop extends Facts₀ where

variable [Facts]
-- ==== Proof.KernelEntry.lean ====
/-
  The kernel's program up to its one pallas_call: the host operations that build the rolled-mask
  table (the sign of `w`, its 2×2 tiling, thirty-one row rotations and their stacking along a new last axis),
  and what every buffer holds when the region is entered.
-/
import proofs.«171113_j55533927137718_1_alg».proof.Proof.Gen.Kernel.Launch
import proofs.«171113_j55533927137718_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The host operations before the region, stretch by stretch in program order: the mask, then one stretch per
    row rotation, then the stacking. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- Core `c`'s TensorCore buffers when the region is entered: the launch contents after every host operation. -/
abbrev V (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩

theorem stretches_fresh : (stretches (F := F)).Forall fun ops => ops.Forall fun op => op.fresh = ∅ := by
  simp only [List.Forall]; repeat' constructor

/-- @main up to the region: the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

/-- No host operation writes the input `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes, StableHlo.nary_writes,
      Finset.mem_singleton]
    repeat' apply And.intro
    all_goals exact StableHlo.devRef_ne_of_ne (by decide)))

/-- No host operation writes the weights `w`: the region finds them as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes, StableHlo.nary_writes,
      Finset.mem_singleton]
    repeat' apply And.intro
    all_goals exact StableHlo.devRef_ne_of_ne (by decide)))

end Cert.Kernel.Entry

end
-- ==== Proof.KernelFrame.lean ====
/-
  The kernel's frame, and its run with the output array named.

  At grid point `t` the body loads the 4×64×64×31 block of `x` and the whole 64×64×31 table, multiplies them
  (the table repeated over the block's four batch rows), sums the last axis, and stores the 4×64×64 result over the
  whole output block.  So after the body the output's staging buffer holds one function (`out0_2`) of the two input
  blocks; the inputs' buffers are left as found.  The pipeline's launch theorem then gives the run, with every array
  named, and the frame claim follows from it.
-/
import proofs.«171113_j55533927137718_1_alg».proof.Proof.KernelEntry
import proofs.«171113_j55533927137718_1_alg».proof.Proof.Gen.Kernel.Skeleton

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of `x` is in its staging buffer at every point, for any proof data over `V` whose body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table, fetched once, is in its staging buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch theorem's post, the two argument arrays end as launched: `x` is a staged input,
    `w` is staged by no window, and no host operation writes either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S4x64x64x31 := Rect.unit (s := S4x64x64x31) ![0, 0, 0, 0] S4x64x64x31.size inb_S4x64x64x31_S4x64x64x31_0_0_0_0
abbrev r0_1 : Rect S64x64x31 := Rect.unit (s := S64x64x31) ![0, 0, 0] S64x64x31.size inb_S64x64x31_S64x64x31_0_0_0
abbrev r0_2 : Rect S4x64x64 := Rect.unit (s := S4x64x64) ![0, 0, 0] S4x64x64.size inb_S4x64x64_S4x64x64_0_0_0

/-! ## What the body leaves in the output's buffer -/

/-- The output's staging buffer after the body, from the two input blocks: its one whole-block store. -/
def out0_2 (x0 : Vec F S4x64x64x31 .f32) (x1 : Vec F S64x64x31 .f32) : Vec F S4x64x64 .f32 :=
  View.canon [⟨r0_2, k0_pay1 (View.ld x0 r0_0) (View.ld x1 r0_1)⟩]

/-- The one store covers the buffer. -/
theorem cover0_2 (p0 : Vec F S4x64x64 .f32) (y : S4x64x64.Idx) :
    ∃ pc ∈ ([⟨r0_2, p0⟩] : List (View.Piece (Elt F) S4x64x64 .f32)), y ∈ pc.1.set :=
  View.cover_of_tiled [⟨r0_2, p0⟩] S4x64x64.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords) (arg1 : Memref sig .tc .vmem S4x64x64x31 .f32) (harg1 : arg1.IsWhole)
    (arg2 : Memref sig .tc .vmem S64x64x31 .f32) (harg2 : arg2.IsWhole) (arg3 : Memref sig .tc .vmem S4x64x64 .f32) (harg3 : arg3.IsWhole)
    (x0 : Vec F S4x64x64x31 .f32) (x1 : Vec F S64x64x31 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at `out0_2` of the two input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frame

end
-- ==== Proof.KernelIdealEntry.lean ====
/-
  The idealized kernel's program up to its one pallas_call: the host operations that build the rolled-mask
  table (the sign of `w`, its 2×2 tiling, thirty-one row rotations and their stacking along a new last axis),
  and what every buffer holds when the region is entered.
-/
import proofs.«171113_j55533927137718_1_alg».proof.Proof.Gen.KernelIdeal.Launch
import proofs.«171113_j55533927137718_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The host operations before the region, stretch by stretch in program order: the mask, then one stretch per
    row rotation, then the stacking. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- Core `c`'s TensorCore buffers when the region is entered: the launch contents after every host operation. -/
abbrev V (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩

theorem stretches_fresh : (stretches (F := F)).Forall fun ops => ops.Forall fun op => op.fresh = ∅ := by
  simp only [List.Forall]; repeat' constructor

/-- @main up to the region: the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

/-- No host operation writes the input `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes, StableHlo.nary_writes,
      Finset.mem_singleton]
    repeat' apply And.intro
    all_goals exact StableHlo.devRef_ne_of_ne (by decide)))

/-- No host operation writes the weights `w`: the region finds them as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes, StableHlo.nary_writes,
      Finset.mem_singleton]
    repeat' apply And.intro
    all_goals exact StableHlo.devRef_ne_of_ne (by decide)))

end Cert.KernelIdeal.Entry

end
-- ==== Proof.KernelIdealFrame.lean ====
/-
  The idealized kernel's frame, and its run with the output array named.

  At grid point `t` the body loads the 4×64×64×31 block of `x` and the whole 64×64×31 table, multiplies them
  (the table repeated over the block's four batch rows), sums the last axis, and stores the 4×64×64 result over the
  whole output block.  So after the body the output's staging buffer holds one function (`out0_2`) of the two input
  blocks; the inputs' buffers are left as found.  The pipeline's launch theorem then gives the run, with every array
  named, and the frame claim follows from it.
-/
import proofs.«171113_j55533927137718_1_alg».proof.Proof.KernelIdealEntry
import proofs.«171113_j55533927137718_1_alg».proof.Proof.Gen.KernelIdeal.Skeleton

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of `x` is in its staging buffer at every point, for any proof data over `V` whose body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table, fetched once, is in its staging buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch theorem's post, the two argument arrays end as launched: `x` is a staged input,
    `w` is staged by no window, and no host operation writes either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S4x64x64x31 := Rect.unit (s := S4x64x64x31) ![0, 0, 0, 0] S4x64x64x31.size inb_S4x64x64x31_S4x64x64x31_0_0_0_0
abbrev r0_1 : Rect S64x64x31 := Rect.unit (s := S64x64x31) ![0, 0, 0] S64x64x31.size inb_S64x64x31_S64x64x31_0_0_0
abbrev r0_2 : Rect S4x64x64 := Rect.unit (s := S4x64x64) ![0, 0, 0] S4x64x64.size inb_S4x64x64_S4x64x64_0_0_0

/-! ## What the body leaves in the output's buffer -/

/-- The output's staging buffer after the body, from the two input blocks: its one whole-block store. -/
def out0_2 (x0 : Vec F S4x64x64x31 .f32) (x1 : Vec F S64x64x31 .f32) : Vec F S4x64x64 .f32 :=
  View.canon [⟨r0_2, k0_pay1 (View.ld x0 r0_0) (View.ld x1 r0_1)⟩]

/-- The one store covers the buffer. -/
theorem cover0_2 (p0 : Vec F S4x64x64 .f32) (y : S4x64x64.Idx) :
    ∃ pc ∈ ([⟨r0_2, p0⟩] : List (View.Piece (Elt F) S4x64x64 .f32)), y ∈ pc.1.set :=
  View.cover_of_tiled [⟨r0_2, p0⟩] S4x64x64.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords) (arg1 : Memref sig .tc .vmem S4x64x64x31 .f32) (harg1 : arg1.IsWhole)
    (arg2 : Memref sig .tc .vmem S64x64x31 .f32) (harg2 : arg2.IsWhole) (arg3 : Memref sig .tc .vmem S4x64x64 .f32) (harg3 : arg3.IsWhole)
    (x0 : Vec F S4x64x64x31 .f32) (x1 : Vec F S64x64x31 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at `out0_2` of the two input blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frame

end
-- ==== Proof.RollSum.lean ====
/-
  The function both programs compute, stated once over plain index sets.

  With `s = sign w` laid out as a 32×32 tile and repeated 2×2 into a 64×64 mask,
  `mask (i, j) = s (32·(i mod 32) + j mod 32)`.  Channel `c` of the table is the mask rolled
  down by `c` rows, `table (i, j, c) = mask ((i − c) mod 64, j)`, and the result is the
  channel sum `out (b, i, j) = ∑ c < 31, x (b, i, j, c) · table (i, j, c)`.
-/
import Idealize.ShloMosaic.PureOps.Ideal
import Idealize.ShloMosaic.Lib.ValueIdx

noncomputable section

namespace Cert.RollSum

open Idealize.ShloMosaic Idealize.ShloMosaic.ValueIdx

abbrev SX : Shape := ⟨4, ![256, 64, 64, 31]⟩
abbrev SW : Shape := ⟨1, ![1024]⟩
abbrev ST : Shape := ⟨3, ![64, 64, 31]⟩
abbrev SO : Shape := ⟨3, ![256, 64, 64]⟩

/-- The flat position, in the 1024-long sign vector, of the mask entry that the table holds at row `i`,
    column `j`, channel `c`: row `(i − c) mod 64` of the mask (written without subtraction), column `j`,
    each folded into the 32×32 tile. -/
def signPos (i j c : ℕ) : ℕ := ((i + 64 - c) % 64 % 32) * 32 + j % 32

theorem signPos_lt (i j c : ℕ) : signPos i j c < 1024 := by
  unfold signPos
  have h1 : (i + 64 - c) % 64 % 32 < 32 := Nat.mod_lt _ (by norm_num)
  have h2 : j % 32 < 32 := Nat.mod_lt _ (by norm_num)
  omega

/-- A position of the sign vector as an index of the rank-1 shape. -/
def wIdx (p : Fin 1024) : SW.Idx := fun a => match a with | ⟨0, _⟩ => p

/-- The rolled-mask table over any element type: a pure re-indexing of the sign vector. -/
def table {α : Type} (s : SW.Idx → α) : ST.Idx → α :=
  fun k => s (wIdx ⟨signPos (k 0).val (k 1).val (k 2).val, signPos_lt _ _ _⟩)

/-- An index of the input from its four coordinates. -/
def xIdx (b : Fin 256) (i j : Fin 64) (c : Fin 31) : SX.Idx := fun a => match a with
  | ⟨0, _⟩ => b | ⟨1, _⟩ => i | ⟨2, _⟩ => j | ⟨3, _⟩ => c

/-- An index of the table from its three coordinates. -/
def tIdx (i j : Fin 64) (c : Fin 31) : ST.Idx := fun a => match a with
  | ⟨0, _⟩ => i | ⟨1, _⟩ => j | ⟨2, _⟩ => c

/-- The result: at `(b, i, j)` the sum over the 31 channels of the input times the table. -/
def G (x : SX.Idx → EReal) (s : SW.Idx → EReal) : SO.Idx → EReal :=
  fun o => ∑ c : Fin 31, x (xIdx (o 0) (o 1) (o 2) c) * table s (tIdx (o 1) (o 2) c)

end Cert.RollSum

end
-- ==== Proof.LibSignTile.lean ====
/-
  A sign vector laid out as a 32×32 tile and repeated 2×2, read at an index.
-/
import Idealize.ShloMosaic.PureOps
import Idealize.ShloMosaic.Lib.ValueIdx
import Idealize.ShloMosaic.Lib.Pipeline.Value
import proofs.«171113_j55533927137718_1_alg».proof.Proof.RollSum

namespace Cert.LibSignTile

open Idealize.ShloMosaic Idealize.ShloMosaic.ValueIdx

/-- A 1024-long vector viewed as a 32×32 tile and repeated twice along each axis: the 64×64 result holds, at row `i`
    and column `j`, the vector's entry at position `32·(i mod 32) + j mod 32`.

    The 64×64 index `(i, j)` has row-major position `64·i + j`, which in `[2, 32, 2, 32]` is the index
    `(i / 32, i mod 32, j / 32, j mod 32)`; the broadcast forgets the two size-2 coordinates; `[1, 32, 1, 32]` and
    `[32, 32]` list their entries in the same row-major order, and position `(a, b)` of `[32, 32]` is position
    `32·a + b` of the vector. -/
theorem signTile_apply {α : Type} (s : (⟨1, ![1024]⟩ : Shape).Idx → α)
    (h1 : (⟨1, ![1024]⟩ : Shape).ShapeCasts ⟨2, ![32, 32]⟩)
    (h2 : (⟨2, ![32, 32]⟩ : Shape).ShapeCasts ⟨4, ![1, 32, 1, 32]⟩)
    (hb : (⟨4, ![1, 32, 1, 32]⟩ : Shape).BroadcastsInDim ⟨4, ![2, 32, 2, 32]⟩ ![0, 1, 2, 3])
    (h3 : (⟨4, ![2, 32, 2, 32]⟩ : Shape).ShapeCasts ⟨2, ![64, 64]⟩) (i j : Fin 64) :
    shapeCast ⟨2, ![64, 64]⟩
        (broadcastInDim ⟨4, ![2, 32, 2, 32]⟩ ![0, 1, 2, 3] hb
          (shapeCast ⟨4, ![1, 32, 1, 32]⟩ (shapeCast ⟨2, ![32, 32]⟩ s h1) h2)) h3 (ix2 i j)
      = s (Cert.RollSum.wIdx ⟨(i.val % 32) * 32 + j.val % 32, by omega⟩) := by
  have hi := i.isLt
  have hj := j.isLt
  -- the 64×64 index as an index of [2, 32, 2, 32]
  refine (shapeCast_apply _ h3 (ix2 i j)
    (ix4 (⟨i.val / 32, by omega⟩ : Fin 2) (⟨i.val % 32, by omega⟩ : Fin 32)
      (⟨j.val / 32, by omega⟩ : Fin 2) (⟨j.val % 32, by omega⟩ : Fin 32)) ?_).trans ?_
  · rw [Shape.rowMajor_val_four, Shape.rowMajor_val_two]
    show ((i.val / 32 * 32 + i.val % 32) * 2 + j.val / 32) * 32 + j.val % 32 = i.val * 64 + j.val
    omega
  -- the broadcast forgets the two size-2 coordinates
  refine (broadcastInDim_apply _ hb _ _
    (ix4 (0 : Fin 1) (⟨i.val % 32, by omega⟩ : Fin 32) (0 : Fin 1) (⟨j.val % 32, by omega⟩ : Fin 32))
    fun a => match a with | ⟨0, _⟩ => rfl | ⟨1, _⟩ => rfl | ⟨2, _⟩ => rfl | ⟨3, _⟩ => rfl).trans ?_
  -- [1, 32, 1, 32] and [32, 32] are the same row-major order
  refine (shapeCast_apply _ h2 _ (ix2 (⟨i.val % 32, by omega⟩ : Fin 32) (⟨j.val % 32, by omega⟩ : Fin 32)) ?_).trans ?_
  · rw [Shape.rowMajor_val_four, Shape.rowMajor_val_two]
    show i.val % 32 * 32 + j.val % 32 = ((0 * 32 + i.val % 32) * 1 + 0) * 32 + j.val % 32
    omega
  -- position (a, b) of [32, 32] is position 32·a + b of the vector
  refine shapeCast_apply _ h1 _ _ ?_
  rw [Shape.rowMajor_val_two, Shape.rowMajor_val_one]
  rfl

end Cert.LibSignTile
-- ==== Proof.KernelIdealTable.lean ====
/-
  What the table's buffer holds when the region is entered.

  Before the region the host operations build, from the weights `w`, the rolled-mask table: the sign of `w` viewed as a
  32×32 tile and repeated 2×2 (the mask); thirty-one row rotations of the mask, rotation `c` being the last `c` rows
  placed above the first `64 − c`; each rotation given a trailing unit axis; and the thirty-one slabs stacked along that
  axis, sixteen and fifteen at a time.  Read at an index `(i, j, c)`: the stack picks slab `c`, the unit axis is dropped,
  rotation `c` reads row `(i + 64 − c) mod 64` of the mask, and the mask reads the sign at flat position
  `32·(row mod 32) + j mod 32` — the table of the specification.
-/
import proofs.«171113_j55533927137718_1_alg».proof.Proof.KernelIdealEntry
import proofs.«171113_j55533927137718_1_alg».proof.Proof.RollSum
import proofs.«171113_j55533927137718_1_alg».proof.Proof.LibSignTile
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Table

open Idealize.ShloMosaic Idealize.ShloMosaic.TcCoe Idealize.ShloMosaic.ValueIdx
open Cert.KernelIdeal Cert.KernelIdeal.Gen Cert.KernelIdeal.Entry

variable {F : FTy → Type} [FloatOps F]

/-! ## Layout operations at an index -/

section Layout

variable {α : Type}

/-- Rotating the rows of a 64×64 array downward, written as the last `k` rows placed above the first `k'` rows
    (`k + k' = 64`): row `i` of the result is row `(i + k') mod 64` of the operand.  Rows below `k` come from the first
    piece, whose row `i` is row `k' + i` of the operand; rows from `k` on come from the second piece, whose row `i - k`
    is row `i - k` of the operand; in both cases that is `(i + k') mod 64`. -/
theorem roll_apply (k k' : Nat) (hkk : k + k' = 64) (x : (⟨2, ![64, 64]⟩ : Shape).Idx → α)
    (h1 : (⟨2, ![64, 64]⟩ : Shape).Slices ![k', 0] ⟨2, ![k, 64]⟩)
    (h2 : (⟨2, ![64, 64]⟩ : Shape).Slices ![0, 0] ⟨2, ![k', 64]⟩)
    (hc : Shape.Concatenates [(⟨2, ![k, 64]⟩ : Shape), ⟨2, ![k', 64]⟩] ⟨2, ![64, 64]⟩ 0)
    (i j r : Fin 64) (hr : r.val = (i.val + k') % 64) :
    concatenate ⟨2, ![64, 64]⟩ 0
        [⟨⟨2, ![k, 64]⟩, extractStridedSlice ⟨2, ![k, 64]⟩ ![k', 0] x h1⟩,
         ⟨⟨2, ![k', 64]⟩, extractStridedSlice ⟨2, ![k', 64]⟩ ![0, 0] x h2⟩] hc (ix2 i j)
      = x (ix2 r j) := by
  have hi := i.isLt
  by_cases hik : i.val < k
  · refine (concatenate_pair_apply_left (t := ⟨2, ![64, 64]⟩) (s₁ := ⟨2, ![k, 64]⟩) (s₂ := ⟨2, ![k', 64]⟩) (0 : Fin 2) _ _ hc _ rfl
      (ix2 (⟨i.val, hik⟩ : Fin k) j) (by
        intro b
        match b with
        | ⟨0, _⟩ => rfl
        | ⟨1, _⟩ => rfl)).trans ?_
    exact extractStridedSlice_apply _ x h1 _ _ (by
      intro a
      match a with
      | ⟨0, _⟩ => show r.val = k' + i.val; omega
      | ⟨1, _⟩ => show j.val = 0 + j.val; omega)
  · refine (concatenate_pair_apply_right (t := ⟨2, ![64, 64]⟩) (s₁ := ⟨2, ![k, 64]⟩) (s₂ := ⟨2, ![k', 64]⟩) (0 : Fin 2) _ _ hc _ rfl rfl
      (ix2 (⟨i.val - k, by omega⟩ : Fin k') j) (by
        intro b hb
        match b with
        | ⟨0, _⟩ => exact absurd rfl hb
        | ⟨1, _⟩ => rfl) (by show i.val - k + k = i.val; omega)).trans ?_
    exact extractStridedSlice_apply _ x h2 _ _ (by
      intro a
      match a with
      | ⟨0, _⟩ => show r.val = 0 + (i.val - k); omega
      | ⟨1, _⟩ => show j.val = 0 + j.val; omega)

/-- A 64×64 array given a trailing unit axis reads, at `(i, j, 0)`, its entry `(i, j)`. -/
theorem bcastUnit_apply (x : (⟨2, ![64, 64]⟩ : Shape).Idx → α)
    (h : (⟨2, ![64, 64]⟩ : Shape).BroadcastsInDim ⟨3, ![64, 64, 1]⟩ ![0, 1]) (i j : Fin 64) (z : Fin 1) :
    broadcastInDim ⟨3, ![64, 64, 1]⟩ ![0, 1] h x (ix3 i j z) = x (ix2 i j) :=
  broadcastInDim_apply _ h x _ _ (fun a => by
    match a with
    | ⟨0, _⟩ => rfl
    | ⟨1, _⟩ => rfl)

/-- Sixteen [64,64,1] slabs stacked along the last axis: channel `n` of the stack is slab `n`. -/
theorem stack16_apply (f0 f1 f2 f3 f4 f5 f6 f7 f8 f9 f10 f11 f12 f13 f14 f15 : (⟨3, ![64, 64, 1]⟩ : Shape).Idx → α) (h) (i j : Fin 64) (n : Fin 16) :
    concatenate ⟨3, ![64, 64, 16]⟩ 2 [⟨S64x64x1, f0⟩, ⟨S64x64x1, f1⟩, ⟨S64x64x1, f2⟩, ⟨S64x64x1, f3⟩, ⟨S64x64x1, f4⟩, ⟨S64x64x1, f5⟩, ⟨S64x64x1, f6⟩, ⟨S64x64x1, f7⟩, ⟨S64x64x1, f8⟩, ⟨S64x64x1, f9⟩, ⟨S64x64x1, f10⟩, ⟨S64x64x1, f11⟩, ⟨S64x64x1, f12⟩, ⟨S64x64x1, f13⟩, ⟨S64x64x1, f14⟩, ⟨S64x64x1, f15⟩] h (ix3 i j n)
      = (![f0, f1, f2, f3, f4, f5, f6, f7, f8, f9, f10, f11, f12, f13, f14, f15] n) (ix3 i j (0 : Fin 1)) :=
  concatenate_ofFn_unit_apply (t := ⟨3, ![64, 64, 16]⟩) (s₁ := ⟨3, ![64, 64, 1]⟩) (2 : Fin 3) ![f0, f1, f2, f3, f4, f5, f6, f7, f8, f9, f10, f11, f12, f13, f14, f15] h rfl rfl
    (ix3 i j n) n rfl (ix3 i j (0 : Fin 1)) (fun b hb => by
      match b with
      | ⟨0, _⟩ => rfl
      | ⟨1, _⟩ => rfl
      | ⟨2, _⟩ => exact absurd rfl hb)

/-- Fifteen [64,64,1] slabs stacked along the last axis: channel `n` of the stack is slab `n`. -/
theorem stack15_apply (f0 f1 f2 f3 f4 f5 f6 f7 f8 f9 f10 f11 f12 f13 f14 : (⟨3, ![64, 64, 1]⟩ : Shape).Idx → α) (h) (i j : Fin 64) (n : Fin 15) :
    concatenate ⟨3, ![64, 64, 15]⟩ 2 [⟨S64x64x1, f0⟩, ⟨S64x64x1, f1⟩, ⟨S64x64x1, f2⟩, ⟨S64x64x1, f3⟩, ⟨S64x64x1, f4⟩, ⟨S64x64x1, f5⟩, ⟨S64x64x1, f6⟩, ⟨S64x64x1, f7⟩, ⟨S64x64x1, f8⟩, ⟨S64x64x1, f9⟩, ⟨S64x64x1, f10⟩, ⟨S64x64x1, f11⟩, ⟨S64x64x1, f12⟩, ⟨S64x64x1, f13⟩, ⟨S64x64x1, f14⟩] h (ix3 i j n)
      = (![f0, f1, f2, f3, f4, f5, f6, f7, f8, f9, f10, f11, f12, f13, f14] n) (ix3 i j (0 : Fin 1)) :=
  concatenate_ofFn_unit_apply (t := ⟨3, ![64, 64, 15]⟩) (s₁ := ⟨3, ![64, 64, 1]⟩) (2 : Fin 3) ![f0, f1, f2, f3, f4, f5, f6, f7, f8, f9, f10, f11, f12, f13, f14] h rfl rfl
    (ix3 i j n) n rfl (ix3 i j (0 : Fin 1)) (fun b hb => by
      match b with
      | ⟨0, _⟩ => rfl
      | ⟨1, _⟩ => rfl
      | ⟨2, _⟩ => exact absurd rfl hb)

end Layout

/-! ## The stacking -/

/-- The last three operations stack the thirty-one slabs (sixteen, then fifteen, then the two stacks): at
    `(i, j, c)` the result holds slab `c` at `(i, j, 0)`. -/
theorem tail_read (W : Valuation τ sig (Elt F)) (i j : Fin 64) (c : Fin 31) :
    (StableHlo.after ((hostOps0_32 (F := F)).drop 31) W (Proc.devRef .tc main_v69) : S64x64x31.Idx → Elt F .f32) (ix3 i j c)
      = (([W (Proc.devRef .tc main_v36), W (Proc.devRef .tc main_v37), W (Proc.devRef .tc main_v38), W (Proc.devRef .tc main_v39), W (Proc.devRef .tc main_v40), W (Proc.devRef .tc main_v41), W (Proc.devRef .tc main_v42), W (Proc.devRef .tc main_v43), W (Proc.devRef .tc main_v44), W (Proc.devRef .tc main_v45), W (Proc.devRef .tc main_v46), W (Proc.devRef .tc main_v47), W (Proc.devRef .tc main_v48), W (Proc.devRef .tc main_v49), W (Proc.devRef .tc main_v50), W (Proc.devRef .tc main_v51), W (Proc.devRef .tc main_v52), W (Proc.devRef .tc main_v53), W (Proc.devRef .tc main_v54), W (Proc.devRef .tc main_v55), W (Proc.devRef .tc main_v56), W (Proc.devRef .tc main_v57), W (Proc.devRef .tc main_v58), W (Proc.devRef .tc main_v59), W (Proc.devRef .tc main_v60), W (Proc.devRef .tc main_v61), W (Proc.devRef .tc main_v62), W (Proc.devRef .tc main_v63), W (Proc.devRef .tc main_v64), W (Proc.devRef .tc main_v65), W (Proc.devRef .tc main_v66)] : List (S64x64x1.Idx → Elt F .f32))[c.val]'c.isLt) (ix3 i j (0 : Fin 1)) := by
  have hc31 := c.isLt
  simp only [hostOps0_32, List.drop_succ_cons, List.drop_zero, StableHlo.after_cons, StableHlo.after_nil]
  rw [StableHlo.binary_result]
  rw [StableHlo.nary_result_ne]; rotate_left; decide
  rw [StableHlo.nary_result, StableHlo.nary_result]
  simp only [Matrix.cons_val]
  repeat (rw [StableHlo.nary_result_ne]; rotate_left; decide)
  by_cases hc : c.val < 16
  · refine (concatenate_pair_apply_left (t := S64x64x31) (s₁ := S64x64x16) (s₂ := S64x64x15) (2 : Fin 3) _ _ _ (ix3 i j c) rfl (ix3 i j (⟨c.val, hc⟩ : Fin 16)) (fun b => by
        match b with
        | ⟨0, _⟩ => rfl
        | ⟨1, _⟩ => rfl
        | ⟨2, _⟩ => rfl)).trans ?_
    refine (stack16_apply _ _ _ _ _ _ _ _ _ _ _ _ _ _ _ _ _ i j ⟨c.val, hc⟩).trans ?_
    refine congrFun ?_ _
    obtain ⟨cv, hcv⟩ := c
    dsimp only at hc
    interval_cases cv <;> rfl
  · refine (concatenate_pair_apply_right (t := S64x64x31) (s₁ := S64x64x16) (s₂ := S64x64x15) (2 : Fin 3) _ _ _ (ix3 i j c) rfl rfl (ix3 i j (⟨c.val - 16, by omega⟩ : Fin 15)) (fun b hb => by
        match b with
        | ⟨0, _⟩ => rfl
        | ⟨1, _⟩ => rfl
        | ⟨2, _⟩ => exact absurd rfl hb) (by show c.val - 16 + 16 = c.val; omega)).trans ?_
    refine (stack15_apply _ _ _ _ _ _ _ _ _ _ _ _ _ _ _ _ i j ⟨c.val - 16, by omega⟩).trans ?_
    refine congrFun ?_ _
    obtain ⟨cv, hcv⟩ := c
    dsimp only at hc
    interval_cases cv <;> rfl

/-! ## The rotations and the stacking together -/

set_option maxHeartbeats 8000000 in
/-- From any contents at the mask's buffer, the rotations, the unit-axis broadcasts and the stacking leave, at
    `(i, j, c)` of the table's buffer, the mask's entry at row `(i + 64 - c) mod 64`, column `j`: channel `c` is slab
    `c`, slab `c` is rotation `c` with a unit axis, and rotation `c` reads row `(i + 64 - c) mod 64`. -/
theorem rest_read (W0 : Valuation τ sig (Elt F)) (i j : Fin 64) (c : Fin 31) (r : Fin 64)
    (hr : r.val = (i.val + 64 - c.val) % 64) :
    (StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) W0 (Proc.devRef .tc main_v69) : S64x64x31.Idx → Elt F .f32) (ix3 i j c)
      = (W0 (Proc.devRef .tc main_v4) : S64x64.Idx → Elt F .f32) (ix2 r j) := by
  simp only [List.flatten_cons, List.flatten_nil, List.append_nil, StableHlo.after_append]
  rw [← List.take_append_drop 31 (hostOps0_32 (F := F)), StableHlo.after_append, tail_read]
  obtain ⟨cv, hcv⟩ := c
  dsimp only at hr
  interval_cases cv
  all_goals
    simp only [List.getElem_cons_succ, List.getElem_cons_zero]
    simp (disch := decide) only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.take_succ_cons, List.take_zero, StableHlo.after_cons, StableHlo.after_nil, StableHlo.unary_result', StableHlo.binary_result', StableHlo.unary_result_ne', StableHlo.binary_result_ne', StableHlo.TRef.ofBuf, StableHlo.TRef.toBuf, cast_eq]
    repeat (first
      | rw [StableHlo.unary_result]
      | (rw [StableHlo.unary_result_ne]; rotate_left; decide))
    simp only [StableHlo.TRef.ofBuf, StableHlo.TRef.toBuf, cast_eq]
    refine (bcastUnit_apply _ _ i j 0).trans ?_
    refine roll_apply _ _ ?_ _ _ _ _ i j r ?_ <;> omega

/-! ## The mask -/

/-- The first five operations — the sign, its view as a 32×32 tile and the 2×2 repetition of the tile — leave in the
    mask's buffer, at `(i, j)`, the sign at flat position `32·(i mod 32) + j mod 32`. -/
theorem mask_read (m : (ℓ : Loc nD τ sig) → Buf (Elt F) ℓ) (c : Dev nD) (i j : Fin 64) :
    (StableHlo.after (hostOps0 (F := F)) (fun b => m (c, b)) (Proc.devRef .tc main_v4) : S64x64.Idx → Elt F .f32) (ix2 i j)
      = (Host.sign (F := F) (s := S1024) (φ := .f32) (m ((c : Thread nD τ).loc main_arg1)))
          (Cert.RollSum.wIdx ⟨(i.val % 32) * 32 + j.val % 32, by omega⟩) := by
  have e : (StableHlo.after (hostOps0 (F := F)) (fun b => m (c, b)) (Proc.devRef .tc main_v4) : S64x64.Idx → Elt F .f32)
      = shapeCast S64x64 (broadcastInDim S2x32x2x32 ![0, 1, 2, 3] bcast_S1x32x1x32_S2x32x2x32_0_1_2_3
          (shapeCast S1x32x1x32 (shapeCast S32x32 (Host.sign (F := F) (s := S1024) (φ := .f32) (m ((c : Thread nD τ).loc main_arg1)))
            shapeCasts_S1024_S32x32) shapeCasts_S32x32_S1x32x1x32)) shapeCasts_S2x32x2x32_S64x64 := by
    dsimp only [hostOps0]
    after_results
    rfl
  rw [e]
  exact Cert.LibSignTile.signTile_apply _ _ _ _ _ i j

/-! ## The table -/

/-- When the region is entered the table's buffer holds the rolled-mask table of the sign of `w`. -/
theorem table_eq (m : (ℓ : Loc nD τ sig) → Buf (Elt F) ℓ) (c : Dev nD) :
    (V m c main_v69 : S64x64x31.Idx → Elt F .f32)
      = Cert.RollSum.table (Host.sign (F := F) (s := S1024) (φ := .f32) (m ((c : Thread nD τ).loc main_arg1))) := by
  funext idx
  obtain ⟨i, j, k, rfl⟩ : ∃ (i j : Fin 64) (k : Fin 31), idx = ix3 i j k := ⟨idx 0, idx 1, idx 2, eq_ix3 idx⟩
  have hi := i.isLt
  have hk := k.isLt
  dsimp only [V, stretches]
  rw [List.flatten_cons, StableHlo.after_append,
    rest_read _ i j k ⟨(i.val + 64 - k.val) % 64, Nat.mod_lt _ (by norm_num)⟩ rfl, mask_read]
  rfl

end Cert.KernelIdeal.Table

end
-- ==== Proof.KernelIdealValue.lean ====
/-
  The idealized kernel's output array as one function of its two arguments.

  At grid point `t` the body multiplies the block of `x` holding batch rows `4 t … 4 t + 3` by the whole
  64×64×31 table (repeated over the four rows) and sums the 31 channels.  Read at an index this is
  `∑ c < 31, x (4 t + p, i, j, c) · table (i, j, c)`, which is block `t` of the one whole-array function
  `(b, i, j) ↦ ∑ c < 31, x (b, i, j, c) · table (i, j, c)`.  The 64 blocks of four batch rows cover the 256 rows, so the
  output array ends holding that function; with the table that of the weights' signs it is the specification's.
-/
import proofs.«171113_j55533927137718_1_alg».proof.Proof.KernelIdealFrame
import proofs.«171113_j55533927137718_1_alg».proof.Proof.RollSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Entry Cert.KernelIdeal.Frame

/-! ## The body's payload at an index -/

/-- The table block, given a leading unit axis and repeated over the four batch rows, read at `(p, i, j, c)`:
    the table at `(i, j, c)`, whatever the batch row. -/
theorem repeated_apply (x1 : Vec Ideal S64x64x31 .f32) (p : Fin 4) (i j : Fin 64) (c : Fin 31) :
    broadcastTo S4x64x64x31 (shapeCast S1x64x64x31 (shapeCast S64x64x31 x1 shapeCasts_S64x64x31_S64x64x31)
      shapeCasts_S64x64x31_S1x64x64x31) broadcasts_S1x64x64x31_S4x64x64x31 (ix4 p i j c) = x1 (ix3 i j c) := by
  rw [shapeCast_self]
  refine (broadcastTo_apply _ _ (ix4 p i j c) (ix4 (0 : Fin 1) i j c) (fun a => ?_)).trans ?_
  · match a with
    | ⟨0, _⟩ => rfl
    | ⟨1, _⟩ => rfl
    | ⟨2, _⟩ => rfl
    | ⟨3, _⟩ => rfl
  · refine (shapeCast_addUnit_apply ![64, 64, 31] x1 _ _).trans (congrArg x1 (funext fun a => ?_))
    match a with
    | ⟨0, _⟩ => rfl
    | ⟨1, _⟩ => rfl
    | ⟨2, _⟩ => rfl

/-- The source index of the channel sum over `(p, i, j)` at channel `c` is `(p, i, j, c)`. -/
theorem lift_eq (p : Fin 4) (i j : Fin 64) (c : Fin 31) :
    reduces_S4x64x64x31_S4x64x64.lift (ix3 p i j) c = ix4 p i j c := by
  funext a
  apply Fin.ext
  match a with
  | ⟨0, _⟩ => rfl
  | ⟨1, _⟩ => rfl
  | ⟨2, _⟩ => rfl
  | ⟨3, _⟩ => rfl

/-- The payload at `(p, i, j)`: the sum over the 31 channels of the input block times the table block. -/
theorem pay_apply (x0 : Vec Ideal S4x64x64x31 .f32) (x1 : Vec Ideal S64x64x31 .f32) (p : Fin 4) (i j : Fin 64) :
    k0_pay1 x0 x1 (ix3 p i j) = ∑ c : Fin 31, x0 (ix4 p i j c) * x1 (ix3 i j c) := by
  unfold k0_pay1
  refine (Ideal.multiReduction_add_single (φ := .f32) _ 0x00000000#32 reduces_S4x64x64x31_S4x64x64 (.inl rfl) rfl (ix3 p i j)).trans ?_
  refine Finset.sum_congr rfl fun (c : Fin 31) _ => ?_
  rw [lift_eq p i j c, mulf_apply, repeated_apply]

/-! ## The result as one function of the input array and the table -/

/-- At `(b, i, j)`: the sum over the 31 channels of the input at `(b, i, j, c)` times the table at `(i, j, c)`. -/
def channelSum (A : S256x64x64x31.Idx → EReal) (T : S64x64x31.Idx → EReal) : S256x64x64.Idx → EReal :=
  fun o => ∑ c : Fin 31, A (Cert.RollSum.xIdx (o 0) (o 1) (o 2) c) * T (Cert.RollSum.tIdx (o 1) (o 2) c)

/-- With the table that of a sign vector, it is the specification's function. -/
theorem channelSum_table (x : S256x64x64x31.Idx → EReal) (s : Cert.RollSum.SW.Idx → EReal) :
    channelSum x (Cert.RollSum.table s) = Cert.RollSum.G x s := rfl

/-- The payload over blocks that are restrictions of whole arrays: when the input block at `(p, i, j, ·)` is row `b`
    of the array at `(i, j, ·)` and the table block is the table, the payload at `(p, i, j)` is the channel sum of
    the arrays at `(b, i, j)`. -/
theorem pay_of_blocks (x0 : Vec Ideal S4x64x64x31 .f32) (x1 : Vec Ideal S64x64x31 .f32)
    (A : S256x64x64x31.Idx → EReal) (T : S64x64x31.Idx → EReal) (p : Fin 4) (i j : Fin 64) (b : Fin 256)
    (h0 : ∀ c : Fin 31, x0 (ix4 p i j c) = A (Cert.RollSum.xIdx b i j c))
    (h1 : ∀ c : Fin 31, x1 (ix3 i j c) = T (Cert.RollSum.tIdx i j c)) :
    k0_pay1 x0 x1 (ix3 p i j) = ∑ c : Fin 31, A (Cert.RollSum.xIdx b i j c) * T (Cert.RollSum.tIdx i j c) := by
  rw [pay_apply]
  exact Finset.sum_congr rfl fun c _ => by rw [h0 c, h1 c]

/-! ## The blocks as parts of the arrays -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The windows' index maps over the grid: the input's and the output's block index is the point on the batch axis and
    zero elsewhere; the table's is zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point `t` is batch rows `4 t … 4 t + 3` of the input. -/
theorem xblock_apply (c : Dev nD) (t : Fin cfg0.N) (p : Fin 4) (i j : Fin 64) (ch : Fin 31) (b : Fin 256)
    (hb : b.val = 4 * t.val + p.val) :
    (iblk m c 0 t : Vec Ideal S4x64x64x31 .f32) (ix4 p i j ch)
      = (V m c main_arg0 : S256x64x64x31.Idx → EReal) (Cert.RollSum.xIdx b i j ch) := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t (0 : Fin 4) * 4 + 1 * p.val = b.val; rw [e0, hb]; omega
  | ⟨1, _⟩ => show win0_0.index t (1 : Fin 4) * 64 + 1 * i.val = i.val; rw [e1]; omega
  | ⟨2, _⟩ => show win0_0.index t (2 : Fin 4) * 64 + 1 * j.val = j.val; rw [e2]; omega
  | ⟨3, _⟩ => show win0_0.index t (3 : Fin 4) * 31 + 1 * ch.val = ch.val; rw [e3]; omega

/-- The table block at every point is the whole table. -/
theorem tblock_apply (c : Dev nD) (t : Fin cfg0.N) (i j : Fin 64) (ch : Fin 31) :
    (iblk m c 1 t : Vec Ideal S64x64x31 .f32) (ix3 i j ch)
      = (V m c main_v69 : S64x64x31.Idx → EReal) (Cert.RollSum.tIdx i j ch) := by
  obtain ⟨-, -, -, -, e0, e1, e2, -⟩ := idx_facts t
  unfold iblk
  rw [View.read_apply]
  show V m c main_v69 _ = V m c main_v69 _
  congr 1
  funext a
  apply Fin.ext
  match a with
  | ⟨0, _⟩ => show win0_1.index t (0 : Fin 3) * 64 + 1 * i.val = i.val; rw [e0]; omega
  | ⟨1, _⟩ => show win0_1.index t (1 : Fin 3) * 64 + 1 * j.val = j.val; rw [e1]; omega
  | ⟨2, _⟩ => show win0_1.index t (2 : Fin 3) * 31 + 1 * ch.val = ch.val; rw [e2]; omega

/-! ## What each point writes back, the cover, and the array after the run -/

/-- What point `t` writes back is block `t` of the channel sum of the input and the table as the region finds them. -/
theorem flushed_eq (c : Dev nD) (t : Fin cfg0.N) :
    (dats m 0 c).flushed 2 t
      = ((cfg0.win 2).blk t).view.read (Elt Ideal) (channelSum (V m c main_arg0) (V m c main_v69)) := by
  show (cfg0.win 2).cut (grid0.coords t) ((dats m 0 c).after 2 t) = _
  rw [after0_2]
  unfold out0_2
  rw [View.canon_unit_zero hz3]
  simp only [View.ld_unit_zero (S := S4x64x64x31) hz4, View.ld_unit_zero (S := S64x64x31) hz3]
  obtain ⟨-, -, -, -, -, -, -, e0, e1, e2⟩ := idx_facts t
  have hN : cfg0.N = 64 := N_0
  funext y
  have hp : (y 0).val < 4 := (y 0).isLt
  have hi : (y 1).val < 64 := (y 1).isLt
  have hj : (y 2).val < 64 := (y 2).isLt
  have ht : t.val < 64 := hN ▸ t.isLt
  rw [View.read_apply]
  have hy : (cfg0.win 2).xinj (grid0.coords t) y = ix3 (⟨(y 0).val, hp⟩ : Fin 4) (⟨(y 1).val, hi⟩ : Fin 64) (⟨(y 2).val, hj⟩ : Fin 64) :=
    funext fun a => match a with | ⟨0, _⟩ => rfl | ⟨1, _⟩ => rfl | ⟨2, _⟩ => rfl
  refine ((congrArg (k0_pay1 (iblk m c 0 t) (iblk m c 1 t)) hy).trans
    (pay_of_blocks (iblk m c 0 t) (iblk m c 1 t) (V m c main_arg0) (V m c main_v69)
      ⟨(y 0).val, hp⟩ ⟨(y 1).val, hi⟩ ⟨(y 2).val, hj⟩ ⟨4 * t.val + (y 0).val, by omega⟩
      (fun ch => xblock_apply m c t _ _ _ ch _ rfl) (fun ch => tblock_apply m c t _ _ ch))).trans ?_
  unfold channelSum
  refine Finset.sum_congr rfl fun ch _ => ?_
  have b0 : (((cfg0.win 2).blk t).view.emb y) 0 = (⟨4 * t.val + (y 0).val, by omega⟩ : Fin 256) :=
    Fin.ext (by show win0_2.index t (0 : Fin 3) * 4 + 1 * (y 0).val = 4 * t.val + (y 0).val; rw [e0]; omega)
  have b1 : (((cfg0.win 2).blk t).view.emb y) 1 = (⟨(y 1).val, hi⟩ : Fin 64) :=
    Fin.ext (by show win0_2.index t (1 : Fin 3) * 64 + 1 * (y 1).val = (y 1).val; rw [e1]; omega)
  have b2 : (((cfg0.win 2).blk t).view.emb y) 2 = (⟨(y 2).val, hj⟩ : Fin 64) :=
    Fin.ext (by show win0_2.index t (2 : Fin 3) * 64 + 1 * (y 2).val = (y 2).val; rw [e2]; omega)
  rw [b0, b1, b2]

/-- An index of the output is in point `t`'s block iff each coordinate is in the block's range on its axis. -/
theorem mem_blk (t : Fin cfg0.N) (o : S256x64x64.Idx) :
    o ∈ ((cfg0.win 2).blk t).view.set ↔ ∀ a : Fin 3, win0_2.index t a * S4x64x64.size a ≤ (o a).val
      ∧ (o a).val < win0_2.index t a * S4x64x64.size a + S4x64x64.size a := by
  show o ∈ ((View.whole main_v70).slice (win0_2.rect t)).set ↔ _
  rw [View.set_slice_whole, Rect.mem_set_unit]
  exact Iff.rfl

/-- Batch row `b` of the output is written at point `b / 4`: the blocks cover the array. -/
theorem cover (o : S256x64x64.Idx) :
    ∃ t : Fin cfg0.N, (cfg0.win 2).flush t = true ∧ o ∈ ((cfg0.win 2).blk t).view.set := by
  have hN : cfg0.N = 64 := N_0
  have h0 : (o 0).val < 256 := (o 0).isLt
  have h1 : (o 1).val < 64 := (o 1).isLt
  have h2 : (o 2).val < 64 := (o 2).isLt
  refine ⟨⟨(o 0).val / 4, by omega⟩, flush0_2 _, ?_⟩
  obtain ⟨-, -, -, -, -, -, -, e0, e1, e2⟩ := idx_facts ⟨(o 0).val / 4, by omega⟩
  rw [mem_blk]
  intro a
  match a with
  | ⟨0, _⟩ =>
    show win0_2.index _ (0 : Fin 3) * 4 ≤ (o 0).val ∧ (o 0).val < win0_2.index _ (0 : Fin 3) * 4 + 4
    rw [e0]; show (o 0).val / 4 * 4 ≤ (o 0).val ∧ (o 0).val < (o 0).val / 4 * 4 + 4; omega
  | ⟨1, _⟩ =>
    show win0_2.index _ (1 : Fin 3) * 64 ≤ (o 1).val ∧ (o 1).val < win0_2.index _ (1 : Fin 3) * 64 + 64
    rw [e1]; omega
  | ⟨2, _⟩ =>
    show win0_2.index _ (2 : Fin 3) * 64 ≤ (o 2).val ∧ (o 2).val < win0_2.index _ (2 : Fin 3) * 64 + 64
    rw [e2]; omega

/-- So the output array ends holding the channel sum of the input and the table as the region finds them. -/
theorem final (c : Dev nD) :
    (dats m 0 c).arrAt 2 cfg0.N = channelSum (V m c main_arg0) (V m c main_v69) :=
  (dats m 0 c).arrAt_eq_of_cover 2 (channelSum (V m c main_arg0) (V m c main_v69)) (fun t _ => flushed_eq m c t) cover

/-! ## The run, read -/

/-- Given that the region finds the table of the weights' signs in its table array, the run ends with the output at
    the specification's function of the two arguments, and the arguments as launched. -/
theorem run_value
    (htab : ∀ c : Dev nD, (V m c main_v69 : S64x64x31.Idx → EReal)
      = Cert.RollSum.table (Host.sign (F := Ideal) (s := S1024) (φ := .f32) (m ((c : Thread nD τ).loc main_arg1)))) :
    θ_run (defs (F := Ideal)) (onTc (τ := τ) (main (F := Ideal))) ⟨m, fun _ => 0, ρ⟩ (fun r => ∀ c : Dev nD,
      r.2.mem ((c.tc : Thread nD τ).loc main_v70)
          = Cert.RollSum.G (m ((c.tc : Thread nD τ).loc main_arg0)) (Host.sign (F := Ideal) (s := S1024) (φ := .f32) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(((h c).1 2).trans (final m c)).trans
        ((congrArg₂ channelSum (V_main_arg0 m c) (htab c)).trans (channelSum_table _ _)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Value

end
-- ==== Proof.ReferenceStages.lean ====
/-
  The reference's @main as one function of its two arguments, in named stages that mirror the program:
  the two index tables `(row + chan) mod 64` and `(row − chan) mod 64`, the take-along-axis that reads
  an array's second axis through such a table, the 2×2-tiled sign mask, and the channel sum.
-/
import proofs.«171113_j55533927137718_1_alg».proof.Proof.Gen.ReferenceIdeal

noncomputable section

namespace Cert.ReferenceIdeal.Stages

open Idealize.ShloMosaic Idealize.SL.Sem
open Cert.ReferenceIdeal Cert.ReferenceIdeal.Gen

variable {F : FTy → Type} [FloatOps F]

/-- The value types of the program's tensors. -/
abbrev TI (S : Shape) : Type := (⟨S, .i32⟩ : BufTy).Contents (Elt F)
abbrev TB (S : Shape) : Type := (⟨S, .i1⟩ : BufTy).Contents (Elt F)
abbrev TF (S : Shape) : Type := (⟨S, .f32⟩ : BufTy).Contents (Elt F)

/-- `rows[:, None]` broadcast to [64, 31]: entry (i, c) is the word i. -/
def rowIdx : TI (F := F) S64x31 :=
  broadcastInDim S64x31 ![0, 1] bcast_S64x1_S64x31_0_1 (broadcastInDim S64x1 ![0] bcast_S64_S64x1_0 (iotaInDim S64 32 0))

/-- `ch[None, :]` broadcast to [64, 31]: entry (i, c) is the word c. -/
def chanIdx : TI (F := F) S64x31 :=
  broadcastInDim S64x31 ![0, 1] bcast_S1x31_S64x31_0_1 (broadcastInDim S1x31 ![1] bcast_S31_S1x31_1 (iotaInDim S31 32 0))

/-- The divisor the remainder really uses: `where (n == 0, 1, n)`. -/
def divisor (n : TI (F := F) S_) : TI (F := F) S_ :=
  select (cmpi .eq n (constantI S_ 32 0#32)) (constantI S_ 32 1#32) n

/-- jnp's floored remainder of a [64, 31] integer array by a scalar: the truncated remainder, moved by one
    divisor where it is non-zero and its sign differs from the divisor's. -/
def remainder (a : TI (F := F) S64x31) (n : TI (F := F) S_) : TI (F := F) S64x31 :=
  let d := divisor (F := F) n
  let r : TI (F := F) S64x31 := Host.remsi a (broadcastInDim S64x31 ![] bcast_S_S64x31 d)
  let nz : TB (F := F) S64x31 := cmpi .ne r (broadcastInDim S64x31 ![] bcast_S_S64x31 (constantI S_ 32 0#32))
  let neg : TB (F := F) S64x31 := cmpi .slt r (broadcastInDim S64x31 ![] bcast_S_S64x31 (constantI S_ 32 0#32))
  let dneg : TB (F := F) S64x31 := broadcastInDim S64x31 ![] bcast_S_S64x31 (cmpi .slt d (constantI S_ 32 0#32))
  select (andi (cmpi .ne neg dneg) nz) (addi r (broadcastInDim S64x31 ![] bcast_S_S64x31 d)) r

/-- `idx_fwd = (rows + ch) mod 64`. -/
def idxFwd : TI (F := F) S64x31 := remainder (F := F) (addi (rowIdx (F := F)) (chanIdx (F := F))) (constantI S_ 32 64#32)

/-- `idx_bwd = (rows − ch) mod 64`. -/
def idxBwd : TI (F := F) S64x31 := remainder (F := F) (subi (rowIdx (F := F)) (chanIdx (F := F))) (constantI S_ 32 64#32)

/-- A [64, 31] index table broadcast over batch and column to the input's shape: entry (b, i, j, c) is the table's (i, c). -/
def spread (t : TI (F := F) S64x31) : TI (F := F) S256x64x64x31 :=
  broadcastInDim S256x64x64x31 ![0, 1, 2, 3] bcast_S1x64x1x31_S256x64x64x31_0_1_2_3
    (broadcastInDim S1x64x1x31 ![1, 3] bcast_S64x31_S1x64x1x31_1_3 t)

/-- The index array as the gather reads it: negative entries moved up by 64, one trailing unit axis. -/
def normIdx (idx : TI (F := F) S256x64x64x31) : TI (F := F) S256x64x64x31x1 :=
  shapeCast S256x64x64x31x1
    (select (cmpi .slt idx (broadcastInDim S256x64x64x31 ![] bcast_S_S256x64x64x31 (constantI S_ 32 0#32)))
      (addi idx (broadcastInDim S256x64x64x31 ![] bcast_S_S256x64x64x31 (constantI S_ 32 64#32))) idx)
    shapeCasts_S256x64x64x31_S256x64x64x31x1

/-- Which entries of the normalised index array lie in 0 … 63. -/
def inRange (i5 : TI (F := F) S256x64x64x31x1) : TB (F := F) S256x64x64x31 :=
  Host.reduce IntOp.andi
    (andi (cmpi .sge i5 (broadcastInDim S256x64x64x31x1 ![] bcast_S_S256x64x64x31x1 (constantI S_ 32 0#32)))
      (cmpi .sle i5 (broadcastInDim S256x64x64x31x1 ![0, 1, 2, 3, 4] bcast_S1x1x1x1x1_S256x64x64x31x1_0_1_2_3_4
        (broadcastInDim S1x1x1x1x1 ![4] bcast_S1_S1x1x1x1x1_4 (constantI S1 32 63#32)))))
    (constantI S_ 1 1#1) reducesTo_S256x64x64x31x1_S256x64x64x31_d4 h_S_

/-- `take_along_axis (x, idx, axis = 1)` in its default mode: the gathered entry where the index is in range, the
    fill value elsewhere. -/
def takeAlong (x : TF (F := F) S256x64x64x31) (idx : TI (F := F) S256x64x64x31) : TF (F := F) S256x64x64x31 :=
  let i5 := normIdx (F := F) idx
  select (inRange (F := F) i5)
    (Host.gather gather_S256x64x64x31_S256x64x64x31x1_S256x64x64x31_n_1_023_023_1_4_1111 x i5)
    (broadcastInDim S256x64x64x31 ![] bcast_S_S256x64x64x31 (constant S_ .f32 0x7FC00000#32))

/-- `sign w` as a 32×32 tile repeated 2×2: the [64, 64] mask. -/
def mask (w : TF (F := F) S1024) : TF (F := F) S64x64 :=
  shapeCast S64x64
    (broadcastInDim S2x32x2x32 ![0, 1, 2, 3] bcast_S1x32x1x32_S2x32x2x32_0_1_2_3
      (shapeCast S1x32x1x32 (shapeCast S32x32 (Host.sign w) shapeCasts_S1024_S32x32) shapeCasts_S32x32_S1x32x1x32))
    shapeCasts_S2x32x2x32_S64x64

/-- The mask broadcast over batch and channel to the input's shape. -/
def maskSpread (w : TF (F := F) S1024) : TF (F := F) S256x64x64x31 :=
  broadcastInDim S256x64x64x31 ![0, 1, 2, 3] bcast_S1x64x64x1_S256x64x64x31_0_1_2_3
    (broadcastInDim S1x64x64x1 ![1, 2] bcast_S64x64_S1x64x64x1_1_2 (mask (F := F) w))

/-- The reference's result as a function of its arguments: roll forward, scale by the mask, roll back, sum the channels. -/
def result (x : TF (F := F) S256x64x64x31) (w : TF (F := F) S1024) : TF (F := F) S256x64x64 :=
  Host.reduceAdd
    (takeAlong (F := F) (mulf (takeAlong (F := F) x (spread (F := F) (idxFwd (F := F)))) (maskSpread (F := F) w))
      (spread (F := F) (idxBwd (F := F))))
    (constant S_ .f32 0x00000000#32) reducesTo_S256x64x64x31_S256x64x64_d3 h_S_

end Cert.ReferenceIdeal.Stages

end
-- ==== Proof.ReferenceRun.lean ====
/-
  The reference's run. Its @main is a straight line of 114 host operations once the calls of the floored remainder
  (itself calling the three-way select) and of the two take-along-axis functions are unfolded at their call sites.
  The line is cut into four stretches; every weakly fair execution terminates with each buffer at the fold of the
  operations over the launch contents, and that fold, read at the result buffer, is the stages' composed function
  of the two arguments, which no operation writes.
-/
import proofs.«171113_j55533927137718_1_alg».proof.Proof.ReferenceStages
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem

variable {F : FTy → Type} [FloatOps F]

/-! ## The operations, in four stretches -/

/-- The first stretch: the two index ramps, their sum, the floored remainder by 64 (its callee's operations in place), and the result spread to the input's shape. -/
abbrev opsA : List (HloOp τ sig (Elt F)) :=
  [ StableHlo.nullary main_v0 (iotaInDim S64 32 0),
    StableHlo.nullary main_v1 (iotaInDim S31 32 0),
    StableHlo.unary main_v0 main_v2 (broadcastInDim S64x1 ![0] bcast_S64_S64x1_0 : (⟨S64, .i32⟩ : BufTy).Contents (Elt F) → (⟨S64x1, .i32⟩ : BufTy).Contents (Elt F)),
    StableHlo.unary main_v1 main_v3 (broadcastInDim S1x31 ![1] bcast_S31_S1x31_1 : (⟨S31, .i32⟩ : BufTy).Contents (Elt F) → (⟨S1x31, .i32⟩ : BufTy).Contents (Elt F)),
    StableHlo.unary main_v2 main_v4 (broadcastInDim S64x31 ![0, 1] bcast_S64x1_S64x31_0_1 : (⟨S64x1, .i32⟩ : BufTy).Contents (Elt F) → (⟨S64x31, .i32⟩ : BufTy).Contents (Elt F)),
    StableHlo.unary main_v3 main_v5 (broadcastInDim S64x31 ![0, 1] bcast_S1x31_S64x31_0_1 : (⟨S1x31, .i32⟩ : BufTy).Contents (Elt F) → (⟨S64x31, .i32⟩ : BufTy).Contents (Elt F)),
    StableHlo.binary main_v4 main_v5 main_v6 (addi : (⟨S64x31, .i32⟩ : BufTy).Contents (Elt F) → (⟨S64x31, .i32⟩ : BufTy).Contents (Elt F) → (⟨S64x31, .i32⟩ : BufTy).Contents (Elt F)),
    StableHlo.nullary main_c (constantI S_ 32 64#32),
    StableHlo.TRef.unary (StableHlo.TRef.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S64x31 ![] bcast_S_S64x31),
    StableHlo.TRef.binary (StableHlo.TRef.of main_v6 : StableHlo.TRef sig ⟨S64x31, .i32⟩) main_call0.v3 main_call0.v4 Host.remsi,
    StableHlo.TRef.nullary main_call0.c_1 (constantI S_ 32 0#32),
    StableHlo.TRef.unary main_call0.c_1 main_call0.v5 (broadcastInDim S64x31 ![] bcast_S_S64x31),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S64x31 ![] bcast_S_S64x31),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S64x31 ![] bcast_S_S64x31),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S64x31 ![] bcast_S_S64x31),
    StableHlo.TRef.binary main_call0.v4 main_call0.v13 main_call0.v14 addi,
    StableHlo.TRef.ternary main_call0.v12 main_call0.v14 main_call0.v4 main_call0.v15 select,
    StableHlo.unary main_v7 main_v8 (broadcastInDim S1x64x1x31 ![1, 3] bcast_S64x31_S1x64x1x31_1_3 : (⟨S64x31, .i32⟩ : BufTy).Contents (Elt F) → (⟨S1x64x1x31, .i32⟩ : BufTy).Contents (Elt F)),
    StableHlo.unary main_v8 main_v9 (broadcastInDim S256x64x64x31 ![0, 1, 2, 3] bcast_S1x64x1x31_S256x64x64x31_0_1_2_3 : (⟨S1x64x1x31, .i32⟩ : BufTy).Contents (Elt F) → (⟨S256x64x64x31, .i32⟩ : BufTy).Contents (Elt F)) ]

/-- The second stretch: the first take-along-axis (its callee's operations in place), the tiled sign mask, and the product. -/
abbrev opsB : List (HloOp τ sig (Elt F)) :=
  [ StableHlo.TRef.nullary main_call1.c (constantI S_ 32 0#32),
    StableHlo.TRef.unary main_call1.c main_call1.v0 (broadcastInDim S256x64x64x31 ![] bcast_S_S256x64x64x31),
    StableHlo.TRef.binary (StableHlo.TRef.of main_v9 : StableHlo.TRef sig ⟨S256x64x64x31, .i32⟩) main_call1.v0 main_call1.v1 (cmpi .slt),
    StableHlo.TRef.nullary main_call1.c_0 (constantI S_ 32 64#32),
    StableHlo.TRef.unary main_call1.c_0 main_call1.v2 (broadcastInDim S256x64x64x31 ![] bcast_S_S256x64x64x31),
    StableHlo.TRef.binary (StableHlo.TRef.of main_v9 : StableHlo.TRef sig ⟨S256x64x64x31, .i32⟩) main_call1.v2 main_call1.v3 addi,
    StableHlo.TRef.ternary main_call1.v1 main_call1.v3 (StableHlo.TRef.of main_v9 : StableHlo.TRef sig ⟨S256x64x64x31, .i32⟩) main_call1.v4 select,
    StableHlo.TRef.reshape main_call1.v4 main_call1.v5 rfl shapeCasts_S256x64x64x31_S256x64x64x31x1,
    StableHlo.TRef.nullary main_call1.c_1 (constantI S1 32 63#32),
    StableHlo.TRef.nullary main_call1.c_2 (constantI S_ 32 0#32),
    StableHlo.TRef.unary main_call1.c_2 main_call1.v6 (broadcastInDim S256x64x64x31x1 ![] bcast_S_S256x64x64x31x1),
    StableHlo.TRef.binary main_call1.v5 main_call1.v6 main_call1.v7 (cmpi .sge),
    StableHlo.TRef.unary main_call1.c_1 main_call1.v8 (broadcastInDim S1x1x1x1x1 ![4] bcast_S1_S1x1x1x1x1_4),
    StableHlo.TRef.unary main_call1.v8 main_call1.v9 (broadcastInDim S256x64x64x31x1 ![0, 1, 2, 3, 4] bcast_S1x1x1x1x1_S256x64x64x31x1_0_1_2_3_4),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S256x64x64x31x1_S256x64x64x31_d4 h_S_),
    StableHlo.TRef.binary (StableHlo.TRef.of main_arg0 : StableHlo.TRef sig ⟨S256x64x64x31, .f32⟩) main_call1.v5 main_call1.v13 (fun x i => Host.gather gather_S256x64x64x31_S256x64x64x31x1_S256x64x64x31_n_1_023_023_1_4_1111 x i),
    StableHlo.TRef.nullary main_call1.cst (constant S_ .f32 0x7FC00000#32),
    StableHlo.TRef.unary main_call1.cst main_call1.v14 (broadcastInDim S256x64x64x31 ![] bcast_S_S256x64x64x31),
    StableHlo.TRef.ternary main_call1.v12 main_call1.v13 main_call1.v14 main_call1.v15 select,
    StableHlo.unary main_arg1 main_v11 (Host.sign : (⟨S1024, .f32⟩ : BufTy).Contents (Elt F) → (⟨S1024, .f32⟩ : BufTy).Contents (Elt F)),
    StableHlo.reshape main_v11 main_v12 rfl shapeCasts_S1024_S32x32,
    StableHlo.reshape main_v12 main_v13 rfl shapeCasts_S32x32_S1x32x1x32,
    StableHlo.unary main_v13 main_v14 (broadcastInDim S2x32x2x32 ![0, 1, 2, 3] bcast_S1x32x1x32_S2x32x2x32_0_1_2_3 : (⟨S1x32x1x32, .f32⟩ : BufTy).Contents (Elt F) → (⟨S2x32x2x32, .f32⟩ : BufTy).Contents (Elt F)),
    StableHlo.reshape main_v14 main_v15 rfl shapeCasts_S2x32x2x32_S64x64,
    StableHlo.unary main_v15 main_v16 (broadcastInDim S1x64x64x1 ![1, 2] bcast_S64x64_S1x64x64x1_1_2 : (⟨S64x64, .f32⟩ : BufTy).Contents (Elt F) → (⟨S1x64x64x1, .f32⟩ : BufTy).Contents (Elt F)),
    StableHlo.unary main_v16 main_v17 (broadcastInDim S256x64x64x31 ![0, 1, 2, 3] bcast_S1x64x64x1_S256x64x64x31_0_1_2_3 : (⟨S1x64x64x1, .f32⟩ : BufTy).Contents (Elt F) → (⟨S256x64x64x31, .f32⟩ : BufTy).Contents (Elt F)),
    StableHlo.binary main_v10 main_v17 main_v18 (mulf : (⟨S256x64x64x31, .f32⟩ : BufTy).Contents (Elt F) → (⟨S256x64x64x31, .f32⟩ : BufTy).Contents (Elt F) → (⟨S256x64x64x31, .f32⟩ : BufTy).Contents (Elt F)) ]

/-- The third stretch: the ramps' difference, the floored remainder by 64 again, and the result spread to the input's shape. -/
abbrev opsC : List (HloOp τ sig (Elt F)) :=
  [ StableHlo.unary main_v0 main_v19 (broadcastInDim S64x1 ![0] bcast_S64_S64x1_0 : (⟨S64, .i32⟩ : BufTy).Contents (Elt F) → (⟨S64x1, .i32⟩ : BufTy).Contents (Elt F)),
    StableHlo.unary main_v1 main_v20 (broadcastInDim S1x31 ![1] bcast_S31_S1x31_1 : (⟨S31, .i32⟩ : BufTy).Contents (Elt F) → (⟨S1x31, .i32⟩ : BufTy).Contents (Elt F)),
    StableHlo.unary main_v19 main_v21 (broadcastInDim S64x31 ![0, 1] bcast_S64x1_S64x31_0_1 : (⟨S64x1, .i32⟩ : BufTy).Contents (Elt F) → (⟨S64x31, .i32⟩ : BufTy).Contents (Elt F)),
    StableHlo.unary main_v20 main_v22 (broadcastInDim S64x31 ![0, 1] bcast_S1x31_S64x31_0_1 : (⟨S1x31, .i32⟩ : BufTy).Contents (Elt F) → (⟨S64x31, .i32⟩ : BufTy).Contents (Elt F)),
    StableHlo.binary main_v21 main_v22 main_v23 (subi : (⟨S64x31, .i32⟩ : BufTy).Contents (Elt F) → (⟨S64x31, .i32⟩ : BufTy).Contents (Elt F) → (⟨S64x31, .i32⟩ : BufTy).Contents (Elt F)),
    StableHlo.nullary main_c_0 (constantI S_ 32 64#32),
    StableHlo.TRef.unary (StableHlo.TRef.of main_c_0 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S64x31 ![] bcast_S_S64x31),
    StableHlo.TRef.binary (StableHlo.TRef.of main_v23 : StableHlo.TRef sig ⟨S64x31, .i32⟩) main_call2.v3 main_call2.v4 Host.remsi,
    StableHlo.TRef.nullary main_call2.c_1 (constantI S_ 32 0#32),
    StableHlo.TRef.unary main_call2.c_1 main_call2.v5 (broadcastInDim S64x31 ![] bcast_S_S64x31),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S64x31 ![] bcast_S_S64x31),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S64x31 ![] bcast_S_S64x31),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S64x31 ![] bcast_S_S64x31),
    StableHlo.TRef.binary main_call2.v4 main_call2.v13 main_call2.v14 addi,
    StableHlo.TRef.ternary main_call2.v12 main_call2.v14 main_call2.v4 main_call2.v15 select,
    StableHlo.unary main_v24 main_v25 (broadcastInDim S1x64x1x31 ![1, 3] bcast_S64x31_S1x64x1x31_1_3 : (⟨S64x31, .i32⟩ : BufTy).Contents (Elt F) → (⟨S1x64x1x31, .i32⟩ : BufTy).Contents (Elt F)),
    StableHlo.unary main_v25 main_v26 (broadcastInDim S256x64x64x31 ![0, 1, 2, 3] bcast_S1x64x1x31_S256x64x64x31_0_1_2_3 : (⟨S1x64x1x31, .i32⟩ : BufTy).Contents (Elt F) → (⟨S256x64x64x31, .i32⟩ : BufTy).Contents (Elt F)) ]

/-- The last stretch: the second take-along-axis and the sum over channels. -/
abbrev opsD : List (HloOp τ sig (Elt F)) :=
  [ StableHlo.TRef.nullary main_call3.c (constantI S_ 32 0#32),
    StableHlo.TRef.unary main_call3.c main_call3.v0 (broadcastInDim S256x64x64x31 ![] bcast_S_S256x64x64x31),
    StableHlo.TRef.binary (StableHlo.TRef.of main_v26 : StableHlo.TRef sig ⟨S256x64x64x31, .i32⟩) main_call3.v0 main_call3.v1 (cmpi .slt),
    StableHlo.TRef.nullary main_call3.c_0 (constantI S_ 32 64#32),
    StableHlo.TRef.unary main_call3.c_0 main_call3.v2 (broadcastInDim S256x64x64x31 ![] bcast_S_S256x64x64x31),
    StableHlo.TRef.binary (StableHlo.TRef.of main_v26 : StableHlo.TRef sig ⟨S256x64x64x31, .i32⟩) main_call3.v2 main_call3.v3 addi,
    StableHlo.TRef.ternary main_call3.v1 main_call3.v3 (StableHlo.TRef.of main_v26 : StableHlo.TRef sig ⟨S256x64x64x31, .i32⟩) main_call3.v4 select,
    StableHlo.TRef.reshape main_call3.v4 main_call3.v5 rfl shapeCasts_S256x64x64x31_S256x64x64x31x1,
    StableHlo.TRef.nullary main_call3.c_1 (constantI S1 32 63#32),
    StableHlo.TRef.nullary main_call3.c_2 (constantI S_ 32 0#32),
    StableHlo.TRef.unary main_call3.c_2 main_call3.v6 (broadcastInDim S256x64x64x31x1 ![] bcast_S_S256x64x64x31x1),
    StableHlo.TRef.binary main_call3.v5 main_call3.v6 main_call3.v7 (cmpi .sge),
    StableHlo.TRef.unary main_call3.c_1 main_call3.v8 (broadcastInDim S1x1x1x1x1 ![4] bcast_S1_S1x1x1x1x1_4),
    StableHlo.TRef.unary main_call3.v8 main_call3.v9 (broadcastInDim S256x64x64x31x1 ![0, 1, 2, 3, 4] bcast_S1x1x1x1x1_S256x64x64x31x1_0_1_2_3_4),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S256x64x64x31x1_S256x64x64x31_d4 h_S_),
    StableHlo.TRef.binary (StableHlo.TRef.of main_v18 : StableHlo.TRef sig ⟨S256x64x64x31, .f32⟩) main_call3.v5 main_call3.v13 (fun x i => Host.gather gather_S256x64x64x31_S256x64x64x31x1_S256x64x64x31_n_1_023_023_1_4_1111 x i),
    StableHlo.TRef.nullary main_call3.cst (constant S_ .f32 0x7FC00000#32),
    StableHlo.TRef.unary main_call3.cst main_call3.v14 (broadcastInDim S256x64x64x31 ![] bcast_S_S256x64x64x31),
    StableHlo.TRef.ternary main_call3.v12 main_call3.v13 main_call3.v14 main_call3.v15 select,
    StableHlo.nullary main_cst (constant S_ .f32 0x00000000#32),
    StableHlo.binary main_v27 main_cst main_v28 ((fun x v => Host.reduceAdd x v reducesTo_S256x64x64x31_S256x64x64_d3 h_S_) : (⟨S256x64x64x31, .f32⟩ : BufTy).Contents (Elt F) → (⟨S_, .f32⟩ : BufTy).Contents (Elt F) → (⟨S256x64x64, .f32⟩ : BufTy).Contents (Elt F)) ]

/-- @main's 114 operations, in order: the four stretches in a row. -/
abbrev ops : List (HloOp τ sig (Elt F)) := opsA ++ (opsB ++ (opsC ++ opsD))

set_option maxRecDepth 4096 in
set_option maxHeartbeats 1000000 in
/-- @main is that straight line: with the callees' bodies unfolded at their calls and sequencing reassociated, both
    sides are one chain of single operations. -/
theorem main_eq (c : Dev nD) : main (F := F) c = StableHlo.seq ops := by
  simp only [main, fn_remainder.body, fn_where.body, fn_take_along_axis.body, fn_take_along_axis_0.body, StableHlo.seq, bind_assoc, pure_bind]
  rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## Every operation touches only the core's own buffers, and determines what it writes -/

theorem opsA_sub : (opsA : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub ..,
    StableHlo.unary_bufs_sub .., StableHlo.unary_bufs_sub .., StableHlo.binary_bufs_sub .., StableHlo.nullary_bufs_sub ..,
    StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub ..,
    StableHlo.ternary_bufs_sub .., StableHlo.unary_bufs_sub .., StableHlo.unary_bufs_sub ..⟩

theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.reshape_bufs_sub ..,
    StableHlo.nullary_bufs_sub .., StableHlo.nullary_bufs_sub .., StableHlo.unary_bufs_sub .., StableHlo.binary_bufs_sub ..,
    StableHlo.unary_bufs_sub .., StableHlo.unary_bufs_sub .., StableHlo.binary_bufs_sub .., StableHlo.binary_bufs_sub ..,
    StableHlo.nullary_bufs_sub .., StableHlo.binary_bufs_sub .., StableHlo.binary_bufs_sub .., StableHlo.nullary_bufs_sub ..,
    StableHlo.unary_bufs_sub .., StableHlo.ternary_bufs_sub .., StableHlo.unary_bufs_sub .., StableHlo.reshape_bufs_sub ..,
    StableHlo.reshape_bufs_sub .., StableHlo.unary_bufs_sub .., StableHlo.reshape_bufs_sub .., StableHlo.unary_bufs_sub ..,
    StableHlo.unary_bufs_sub .., StableHlo.binary_bufs_sub ..⟩

theorem opsC_sub : (opsC : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..,
    StableHlo.binary_bufs_sub .., StableHlo.nullary_bufs_sub .., StableHlo.unary_bufs_sub .., StableHlo.nullary_bufs_sub ..,
    StableHlo.binary_bufs_sub .., StableHlo.nullary_bufs_sub .., StableHlo.ternary_bufs_sub .., StableHlo.unary_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.binary_bufs_sub .., StableHlo.unary_bufs_sub .., StableHlo.binary_bufs_sub .., StableHlo.binary_bufs_sub ..,
    StableHlo.unary_bufs_sub .., StableHlo.binary_bufs_sub .., StableHlo.ternary_bufs_sub .., StableHlo.unary_bufs_sub ..,
    StableHlo.unary_bufs_sub ..⟩

theorem opsD_sub : (opsD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.reshape_bufs_sub ..,
    StableHlo.nullary_bufs_sub .., StableHlo.nullary_bufs_sub .., StableHlo.unary_bufs_sub .., StableHlo.binary_bufs_sub ..,
    StableHlo.unary_bufs_sub .., StableHlo.unary_bufs_sub .., StableHlo.binary_bufs_sub .., StableHlo.binary_bufs_sub ..,
    StableHlo.nullary_bufs_sub .., StableHlo.binary_bufs_sub .., StableHlo.binary_bufs_sub .., StableHlo.nullary_bufs_sub ..,
    StableHlo.unary_bufs_sub .., StableHlo.ternary_bufs_sub .., StableHlo.nullary_bufs_sub .., StableHlo.binary_bufs_sub ..⟩

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

theorem ops_sub : (ops : List (HloOp τ sig (Elt F))).Forall fun op => op.bufs ⊆ StableHlo.tcRefs τ sig :=
  List.forall_append.mpr ⟨opsA_sub, List.forall_append.mpr ⟨opsB_sub, List.forall_append.mpr ⟨opsC_sub, opsD_sub⟩⟩⟩

theorem ops_fresh : ∀ op ∈ (ops : List (HloOp τ sig (Elt F))), op.fresh = ∅ := by
  intro op h
  rcases List.mem_append.mp h with h | h
  · exact opsA_fresh op h
  rcases List.mem_append.mp h with h | h
  · exact opsB_fresh op h
  rcases List.mem_append.mp h with h | h
  · exact opsC_fresh op h
  · exact opsD_fresh op h

/-- From any memory with zero counters, every weakly fair execution of @main terminates with each buffer at the fold of
    the 114 operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ (fun _ => ops_fresh)

/-! ## What each stretch leaves in the buffers a later stretch, or the result, reads

Each statement is over an arbitrary valuation `V` before the stretch: the fold of the stretch's operations,
read at one buffer, is a pure term of `V` at the buffers the stretch reads and does not write. -/

section Reads

open Idealize.ShloMosaic.StableHlo

variable (V : Valuation τ sig (Elt F))

/-- The fold over two lists in a row is the fold over the second, from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 1000000 in
/-- After the first stretch the forward index table `(row + channel) mod 64`, spread to the input's shape, is in place:
    it depends on no buffer. -/
theorem A_v9 : after opsA V (main_v9 : DevRef τ sig) = Stages.spread (F := F) (Stages.idxFwd (F := F)) := by
  after_results_simp
  rfl

/-- The row ramp `0 … 63`. -/
theorem A_v0 : after opsA V (main_v0 : DevRef τ sig) = iotaInDim S64 32 0 := by
  after_results_simp

/-- The channel ramp `0 … 30`. -/
theorem A_v1 : after opsA V (main_v1 : DevRef τ sig) = iotaInDim S31 32 0 := by
  after_results_simp

theorem A_arg0 : after opsA V (main_arg0 : DevRef τ sig) = V (main_arg0 : DevRef τ sig) := by
  after_results_simp

theorem A_arg1 : after opsA V (main_arg1 : DevRef τ sig) = V (main_arg1 : DevRef τ sig) := by
  after_results_simp

attribute [local irreducible] Host.reduce Host.gather Host.reduceAdd in
set_option maxRecDepth 8192 in
set_option maxHeartbeats 1000000 in
/-- After the second stretch: the input read along its second axis through the index table found in place, times the
    sign mask spread over batch and channel. The select of the take-along-axis is compared branch by branch: the
    in-range test, the gathered entries, the fill value. -/
theorem B_v18 : after opsB V (main_v18 : DevRef τ sig)
    = mulf (Stages.takeAlong (F := F) (V (main_arg0 : DevRef τ sig)) (V (main_v9 : DevRef τ sig)))
        (Stages.maskSpread (F := F) (V (main_arg1 : DevRef τ sig))) := by
  after_results_simp
  refine congrArg₂ mulf ?_ ?_
  · show select _ _ _ = _
    unfold Stages.takeAlong
    refine congr (congr (congrArg select ?_) ?_) ?_ <;> rfl
  · rfl

theorem B_v0 : after opsB V (main_v0 : DevRef τ sig) = V (main_v0 : DevRef τ sig) := by
  after_results_simp

theorem B_v1 : after opsB V (main_v1 : DevRef τ sig) = V (main_v1 : DevRef τ sig) := by
  after_results_simp

theorem B_arg0 : after opsB V (main_arg0 : DevRef τ sig) = V (main_arg0 : DevRef τ sig) := by
  after_results_simp

theorem B_arg1 : after opsB V (main_arg1 : DevRef τ sig) = V (main_arg1 : DevRef τ sig) := by
  after_results_simp

set_option maxRecDepth 8192 in
set_option maxHeartbeats 1000000 in
/-- After the third stretch, from the two ramps still in place: the backward index table `(row − channel) mod 64`, spread. -/
theorem C_v26 (h0 : V (main_v0 : DevRef τ sig) = iotaInDim S64 32 0) (h1 : V (main_v1 : DevRef τ sig) = iotaInDim S31 32 0) :
    after opsC V (main_v26 : DevRef τ sig) = Stages.spread (F := F) (Stages.idxBwd (F := F)) := by
  after_results_simp
  rw [h0, h1]
  rfl

theorem C_v18 : after opsC V (main_v18 : DevRef τ sig) = V (main_v18 : DevRef τ sig) := by
  after_results_simp

theorem C_arg0 : after opsC V (main_arg0 : DevRef τ sig) = V (main_arg0 : DevRef τ sig) := by
  after_results_simp

theorem C_arg1 : after opsC V (main_arg1 : DevRef τ sig) = V (main_arg1 : DevRef τ sig) := by
  after_results_simp

attribute [local irreducible] Host.reduce Host.gather Host.reduceAdd in
set_option maxRecDepth 8192 in
set_option maxHeartbeats 1000000 in
/-- After the last stretch: the product read along its second axis through the backward table, summed over the channels. -/
theorem D_v28 : after opsD V (main_v28 : DevRef τ sig)
    = Host.reduceAdd (Stages.takeAlong (F := F) (V (main_v18 : DevRef τ sig)) (V (main_v26 : DevRef τ sig)))
        (constant S_ .f32 0x00000000#32) reducesTo_S256x64x64x31_S256x64x64_d3 h_S_ := by
  after_results_simp
  refine congrArg (fun t => Host.reduceAdd t (constant S_ .f32 0x00000000#32) reducesTo_S256x64x64x31_S256x64x64_d3 h_S_) ?_
  show select _ _ _ = _
  unfold Stages.takeAlong
  refine congr (congr (congrArg select ?_) ?_) ?_ <;> rfl

theorem D_arg0 : after opsD V (main_arg0 : DevRef τ sig) = V (main_arg0 : DevRef τ sig) := by
  after_results_simp

theorem D_arg1 : after opsD V (main_arg1 : DevRef τ sig) = V (main_arg1 : DevRef τ sig) := by
  after_results_simp

/-! ## The whole line -/

/-- The fold of all 114 operations, read at the result buffer, is the stages' composed term of the two arguments:
    the last stretch's sum, over the product the second stretch left (the third does not write it), read through the
    backward table the third stretch built from the ramps the first left (the second does not write them). -/
theorem ops_v28 : after ops V (main_v28 : DevRef τ sig)
    = Stages.result (F := F) (V (main_arg0 : DevRef τ sig)) (V (main_arg1 : DevRef τ sig)) := by
  show after (opsA ++ (opsB ++ (opsC ++ opsD))) V _ = _
  rw [after_app, after_app, after_app, D_v28, C_v18, B_v18, A_arg0, A_v9, A_arg1,
    C_v26 _ (by rw [B_v0, A_v0]) (by rw [B_v1, A_v1])]
  rfl

/-- No operation writes the first argument. -/
theorem ops_arg0 : after ops V (main_arg0 : DevRef τ sig) = V (main_arg0 : DevRef τ sig) := by
  show after (opsA ++ (opsB ++ (opsC ++ opsD))) V _ = _
  rw [after_app, after_app, after_app, D_arg0, C_arg0, B_arg0, A_arg0]

/-- No operation writes the second argument. -/
theorem ops_arg1 : after ops V (main_arg1 : DevRef τ sig) = V (main_arg1 : DevRef τ sig) := by
  show after (opsA ++ (opsB ++ (opsC ++ opsD))) V _ = _
  rw [after_app, after_app, after_app, D_arg1, C_arg1, B_arg1, A_arg1]

end Reads

/-- From any memory with zero counters, for any float values: every weakly fair execution of @main terminates with the
    result buffer at the stages' composed function of the two argument buffers' launch contents, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v28) = Cert.ReferenceIdeal.Stages.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => ⟨(h c main_v28).trans (ops_v28 _), (h c main_arg0).trans (ops_arg0 _),
      (h c main_arg1).trans (ops_arg1 _)⟩)
    (run_all m ρ)

end Cert.ReferenceIdeal.Run

end
-- ==== Proof.ReferenceIndexTables.lean ====
/-
  The reference's two index tables read at an index: entry (i, c) of the forward table is the word
  (i + c) mod 64 and entry (i, c) of the backward table is the word (i − c) mod 64.

  Both tables are the floored remainder by 64 of a small signed word: i + c lies in 0 … 93 and
  i − c in −30 … 63.  The floored remainder is the truncated one, moved up by the divisor where the
  truncated one is non-zero and negative.
-/
import proofs.«171113_j55533927137718_1_alg».proof.Proof.ReferenceStages
import Idealize.ShloMosaic.Lib.ValueIdx

noncomputable section

namespace Cert.ReferenceIdeal.IndexTables

open Idealize.ShloMosaic Idealize.ShloMosaic.ValueIdx
open Cert.ReferenceIdeal Cert.ReferenceIdeal.Gen

variable {F : FTy → Type} [FloatOps F]

/-- The floored remainder by 64 of one 32-bit word, spelt as the program spells it entry by entry:
    the guarded divisor, the truncated remainder, and the correction by one divisor where the remainder
    is non-zero and its sign differs from the divisor's. -/
def floorRem (a : BitVec 32) : BitVec 32 :=
  let d : BitVec 32 := Scalar.select (IntOp.cmpi .eq (64#32) (0#32)) (1#32) (64#32)
  let r : BitVec 32 := IntOp.remsi .host a d
  Scalar.select
    (IntOp.andi (IntOp.cmpi .ne (IntOp.cmpi .slt r (0#32)) (IntOp.cmpi .slt d (0#32))) (IntOp.cmpi .ne r (0#32)))
    (IntOp.addi r d) r

/-- The remainder stage by the constant 64 is `floorRem` entry by entry. -/
theorem remainder_apply (a : Stages.TI (F := F) S64x31) (j : S64x31.Idx) :
    Stages.remainder (F := F) a (constantI S_ 32 64#32) j = floorRem (a j) := rfl

/-- Entry (i, c) of the row table is the word i. -/
theorem rowIdx_apply (i : Fin 64) (c : Fin 31) : Stages.rowIdx (F := F) (ix2 i c) = BitVec.ofNat 32 i.val := rfl

/-- Entry (i, c) of the channel table is the word c. -/
theorem chanIdx_apply (i : Fin 64) (c : Fin 31) : Stages.chanIdx (F := F) (ix2 i c) = BitVec.ofNat 32 c.val := rfl

/-- The floored remainder by 64 of each word 0 … 93 is its remainder as a natural number. -/
theorem floorRem_ofNat : ∀ n : Fin 94, floorRem (BitVec.ofNat 32 n.val) = BitVec.ofNat 32 (n.val % 64) := by
  decide

/-- The floored remainder by 64 of each word −30 … 63, written as a word 0 … 93 less 30, is that
    integer's remainder in 0 … 63. -/
theorem floorRem_sub : ∀ n : Fin 94, floorRem (BitVec.ofNat 32 n.val - 30#32) = BitVec.ofNat 32 ((n.val + 34) % 64) := by
  decide

/-- Entry (i, c) of the forward table is the word (i + c) mod 64: the sum of the row word and the channel word
    lies in 0 … 93, where the floored remainder is the natural one. -/
theorem idxFwd_apply (i : Fin 64) (c : Fin 31) :
    Stages.idxFwd (F := F) (ix2 i c) = BitVec.ofNat 32 ((i.val + c.val) % 64) := by
  show floorRem (BitVec.ofNat 32 i.val + BitVec.ofNat 32 c.val) = _
  rw [← BitVec.ofNat_add]
  exact floorRem_ofNat ⟨i.val + c.val, by omega⟩

/-- Entry (i, c) of the backward table is the word (i − c) mod 64, written without subtraction: the difference
    of the row word and the channel word is the word i + 30 − c in 0 … 93 less 30. -/
theorem idxBwd_apply (i : Fin 64) (c : Fin 31) :
    Stages.idxBwd (F := F) (ix2 i c) = BitVec.ofNat 32 ((i.val + 64 - c.val) % 64) := by
  show floorRem (BitVec.ofNat 32 i.val - BitVec.ofNat 32 c.val) = _
  have h : BitVec.ofNat 32 i.val - BitVec.ofNat 32 c.val = BitVec.ofNat 32 (i.val + 30 - c.val) - 30#32 := by
    apply BitVec.eq_of_toNat_eq
    simp only [BitVec.toNat_sub, BitVec.toNat_ofNat]
    omega
  have e : i.val + 30 - c.val + 34 = i.val + 64 - c.val := by omega
  rw [h, floorRem_sub ⟨i.val + 30 - c.val, by omega⟩]
  show BitVec.ofNat 32 ((i.val + 30 - c.val + 34) % 64) = _
  rw [e]

end Cert.ReferenceIdeal.IndexTables

end
-- ==== Proof.ReferenceTake.lean ====
/-
  The reference's layout stages read at an index of the input's shape [256, 64, 64, 31]:
  an index table spread over batch and column, the tiled sign mask spread over batch and channel,
  and the take-along-axis through a table whose entry is a row number in 0 … 63.
-/
import proofs.«171113_j55533927137718_1_alg».proof.Proof.ReferenceStages
import proofs.«171113_j55533927137718_1_alg».proof.Proof.LibSignTile
import Idealize.ShloMosaic.Lib.ValueIdx
import Idealize.ShloMosaic.Lib.Pipeline.Value
import Idealize.ShloMosaic.Lib.ReduceAll

noncomputable section

namespace Cert.ReferenceIdeal.Take

open Idealize.ShloMosaic Idealize.SL.Sem Idealize.ShloMosaic.ValueIdx
open Cert.ReferenceIdeal Cert.ReferenceIdeal.Gen

variable {F : FTy → Type} [FloatOps F]

/-- The specification's index of the input and the coordinate-tuple index are the same index. -/
theorem xIdx_eq_ix4 (b : Fin 256) (i j : Fin 64) (c : Fin 31) : Cert.RollSum.xIdx b i j c = ix4 b i j c := by
  funext a
  match a with
  | ⟨0, _⟩ => rfl
  | ⟨1, _⟩ => rfl
  | ⟨2, _⟩ => rfl
  | ⟨3, _⟩ => rfl

/-- A [64, 31] table spread to the input's shape holds, at (b, i, j, c), the table's entry (i, c): the two broadcasts
    forget the batch and the column. -/
theorem spread_apply (t : Stages.TI (F := F) S64x31) (b : Fin 256) (i j : Fin 64) (c : Fin 31) :
    Stages.spread (F := F) t (ix4 b i j c) = t (ix2 i c) := by
  unfold Stages.spread
  refine (broadcastInDim_apply _ _ _ (ix4 b i j c) (ix4 (0 : Fin 1) i (0 : Fin 1) c)
    fun a => match a with | ⟨0, _⟩ => rfl | ⟨1, _⟩ => rfl | ⟨2, _⟩ => rfl | ⟨3, _⟩ => rfl).trans ?_
  exact broadcastInDim_apply _ _ _ _ (ix2 i c) fun a => match a with | ⟨0, _⟩ => rfl | ⟨1, _⟩ => rfl

/-- The mask spread to the input's shape holds, at (b, i, j, c), the sign of the weight at position
    32·(i mod 32) + j mod 32: the two broadcasts forget the batch and the channel, and the mask is the 32×32 tile of
    signs repeated 2×2. -/
theorem maskSpread_apply (w : Stages.TF (F := F) S1024) (b : Fin 256) (i j : Fin 64) (c : Fin 31) :
    Stages.maskSpread (F := F) w (ix4 b i j c)
      = Host.sign w (Cert.RollSum.wIdx ⟨(i.val % 32) * 32 + j.val % 32, by omega⟩) := by
  unfold Stages.maskSpread
  refine (broadcastInDim_apply _ _ _ (ix4 b i j c) (ix4 (0 : Fin 1) i j (0 : Fin 1))
    fun a => match a with | ⟨0, _⟩ => rfl | ⟨1, _⟩ => rfl | ⟨2, _⟩ => rfl | ⟨3, _⟩ => rfl).trans ?_
  refine (broadcastInDim_apply _ _ _ _ (ix2 i j) fun a => match a with | ⟨0, _⟩ => rfl | ⟨1, _⟩ => rfl).trans ?_
  unfold Stages.mask
  exact Cert.LibSignTile.signTile_apply (Host.sign w) _ _ _ _ i j

/-- A word holding a row number below 64 is not negative. -/
private theorem slt_zero : ∀ k : Fin 64, IntOp.cmpi .slt (BitVec.ofNat 32 k.val) 0#32 = 0#1 := by decide
/-- … it is at least 0 … -/
private theorem sge_zero : ∀ k : Fin 64, IntOp.cmpi .sge (BitVec.ofNat 32 k.val) 0#32 = 1#1 := by decide
/-- … and at most 63. -/
private theorem sle_top : ∀ k : Fin 64, IntOp.cmpi .sle (BitVec.ofNat 32 k.val) 63#32 = 1#1 := by decide
/-- Read as a signed integer it is the row number itself. -/
private theorem toNat_word : ∀ k : Fin 64, (BitVec.ofNat 32 k.val).toInt.toNat = k.val := by decide

/-- A fold by `and` from 1 over words that are all 1 is 1. -/
private theorem fold_andi_one {n : Nat} (f : Fin n → BitVec 1) (hf : ∀ u, f u = 1#1) :
    (Finset.univ : Finset (Fin n)).fold IntOp.andi 1#1 f = 1#1 := by
  have e : f = fun _ => 1#1 := funext hf
  rw [e]
  induction (Finset.univ : Finset (Fin n)) using Finset.induction_on with
  | empty => rfl
  | insert a s ha ih => rw [Finset.fold_insert ha, ih]; rfl

/-- The gather's dimension numbers, named. -/
private abbrev gd : GatherDims S256x64x64x31 S256x64x64x31x1 S256x64x64x31 :=
  gather_S256x64x64x31_S256x64x64x31x1_S256x64x64x31_n_1_023_023_1_4_1111

/-- Where the index table holds a row number k < 64 the normalised index array holds k too: the word is not negative,
    so nothing is added, and the cast to a trailing unit axis keeps the row-major position. -/
theorem normIdx_apply (idx : Stages.TI (F := F) S256x64x64x31)
    (b : Fin 256) (i j : Fin 64) (c : Fin 31) (u : Fin 1) (k : Fin 64) (hk : idx (ix4 b i j c) = BitVec.ofNat 32 k.val) :
    Stages.normIdx (F := F) idx (ix5 b i j c u) = BitVec.ofNat 32 k.val := by
  unfold Stages.normIdx
  refine (shapeCast_apply _ _ (ix5 b i j c u) (ix4 b i j c) ?_).trans ?_
  · have hu : u.val = 0 := by omega
    rw [Shape.rowMajor_val_five, Shape.rowMajor_val_four]
    show ((b.val * 64 + i.val) * 64 + j.val) * 31 + c.val = (((b.val * 64 + i.val) * 64 + j.val) * 31 + c.val) * 1 + u.val
    omega
  show Scalar.select (IntOp.cmpi .slt (idx (ix4 b i j c)) 0#32) (IntOp.addi (idx (ix4 b i j c)) 64#32) (idx (ix4 b i j c)) = _
  rw [hk, slt_zero k, select_zero]

/-- Where the normalised index is a row number k < 64 the range test is 1: the `and` over the trailing unit axis meets
    the one word `0 ≤ k ∧ k ≤ 63`. -/
theorem inRange_apply (i5 : Stages.TI (F := F) S256x64x64x31x1)
    (b : Fin 256) (i j : Fin 64) (c : Fin 31) (k : Fin 64) (hk : ∀ u : Fin 1, i5 (ix5 b i j c u) = BitVec.ofNat 32 k.val) :
    Stages.inRange (F := F) i5 (ix4 b i j c) = 1#1 := by
  unfold Stages.inRange
  have hR : S256x64x64x31x1.Reduces [4] S256x64x64x31 := by decide
  rw [Host.reduce_eq_fold_single IntOp.andi _ _ _ hR]
  refine fold_andi_one _ fun u => ?_
  have hu : u.val < 1 := u.isLt
  have hl : hR.lift (ix4 b i j c) u = ix5 b i j c (0 : Fin 1) := by
    funext a
    refine Fin.ext ?_
    match a with
    | ⟨0, _⟩ => rfl
    | ⟨1, _⟩ => rfl
    | ⟨2, _⟩ => rfl
    | ⟨3, _⟩ => rfl
    | ⟨4, _⟩ => show u.val = 0; omega
  show IntOp.andi (IntOp.cmpi .sge (i5 (hR.lift (ix4 b i j c) u)) 0#32)
    (IntOp.cmpi .sle (i5 (hR.lift (ix4 b i j c) u)) 63#32) = 1#1
  rw [hl, hk, sge_zero, sle_top]
  rfl

/-- The gather at (b, i, j, c), where the start index is a row number k < 64, reads the operand at (b, k, j, c): axes 0, 2, 3
    are batching axes and carry the result's own coordinates; axis 1 is collapsed and starts at the index word read
    signed and clamped into 0 … 63, which is k. -/
theorem gather_apply (x : Stages.TF (F := F) S256x64x64x31) (i5 : Stages.TI (F := F) S256x64x64x31x1)
    (b : Fin 256) (i j : Fin 64) (c : Fin 31) (k : Fin 64) (hk : ∀ u : Fin 1, i5 (ix5 b i j c u) = BitVec.ofNat 32 k.val) :
    Host.gather gather_S256x64x64x31_S256x64x64x31x1_S256x64x64x31_n_1_023_023_1_4_1111 x i5 (ix4 b i j c)
      = x (ix4 b k j c) := by
  show x (gd.operandIdx (ix4 b i j c) i5) = _
  refine congrArg x (funext fun a => Fin.ext ?_)
  match a with
  | ⟨0, _⟩ =>
    show gd.start (ix4 b i j c) i5 0 + gd.batchCoord (ix4 b i j c) 0 + gd.offCoord (ix4 b i j c) 0 = b.val
    have hb : (0 : Fin 4) ∈ gd.operandBatchingDims := by decide
    rw [gd.start_batching _ _ _ hb, gd.offCoord_eq_zero _ _ (fun h => ((gd.mem_sKept _).1 h).2 hb), Nat.zero_add, Nat.add_zero]
    unfold GatherDims.batchCoord
    rw [dif_pos hb]
    rfl
  | ⟨1, _⟩ =>
    show gd.start (ix4 b i j c) i5 1 + gd.batchCoord (ix4 b i j c) 1 + gd.offCoord (ix4 b i j c) 1 = k.val
    have hnb : (1 : Fin 4) ∉ gd.operandBatchingDims := by decide
    have hc : (1 : Fin 4) ∈ gd.collapsedSliceDims := by decide
    have hm : (1 : Fin 4) ∈ gd.startIndexMap := by decide
    rw [gd.batchCoord_eq_zero _ _ hnb, gd.offCoord_eq_zero _ _ (fun h => ((gd.mem_sKept _).1 h).1 hc)]
    simp only [Nat.add_zero]
    unfold GatherDims.start
    rw [dif_pos hm]
    have hsi : gd.siIdx (ix4 b i j c) ⟨List.idxOf (1 : Fin 4) gd.startIndexMap, List.idxOf_lt_length_iff.2 hm⟩
        = ix5 b i j c (0 : Fin 1) := by
      funext a
      refine Fin.ext ?_
      match a with
      | ⟨0, _⟩ => rfl
      | ⟨1, _⟩ => rfl
      | ⟨2, _⟩ => rfl
      | ⟨3, _⟩ => rfl
      | ⟨4, _⟩ => rfl
    rw [hsi, hk, toNat_word]
    show min k.val (64 - 1) = k.val
    omega
  | ⟨2, _⟩ =>
    show gd.start (ix4 b i j c) i5 2 + gd.batchCoord (ix4 b i j c) 2 + gd.offCoord (ix4 b i j c) 2 = j.val
    have hb : (2 : Fin 4) ∈ gd.operandBatchingDims := by decide
    rw [gd.start_batching _ _ _ hb, gd.offCoord_eq_zero _ _ (fun h => ((gd.mem_sKept _).1 h).2 hb), Nat.zero_add, Nat.add_zero]
    unfold GatherDims.batchCoord
    rw [dif_pos hb]
    rfl
  | ⟨3, _⟩ =>
    show gd.start (ix4 b i j c) i5 3 + gd.batchCoord (ix4 b i j c) 3 + gd.offCoord (ix4 b i j c) 3 = c.val
    have hb : (3 : Fin 4) ∈ gd.operandBatchingDims := by decide
    rw [gd.start_batching _ _ _ hb, gd.offCoord_eq_zero _ _ (fun h => ((gd.mem_sKept _).1 h).2 hb), Nat.zero_add, Nat.add_zero]
    unfold GatherDims.batchCoord
    rw [dif_pos hb]
    rfl

/-- Take-along-axis at (b, i, j, c), where the table's entry is a row number k < 64, is the array's entry (b, k, j, c):
    the index is in range, so the select takes the gathered entry, never the fill. -/
theorem takeAlong_apply (x : Stages.TF (F := F) S256x64x64x31) (idx : Stages.TI (F := F) S256x64x64x31)
    (b : Fin 256) (i j : Fin 64) (c : Fin 31) (k : Fin 64) (hk : idx (ix4 b i j c) = BitVec.ofNat 32 k.val) :
    Stages.takeAlong (F := F) x idx (ix4 b i j c) = x (ix4 b k j c) := by
  unfold Stages.takeAlong
  show Scalar.select _ _ _ = _
  have h5 : ∀ u : Fin 1, Stages.normIdx (F := F) idx (ix5 b i j c u) = BitVec.ofNat 32 k.val :=
    fun u => normIdx_apply idx b i j c u k hk
  rw [inRange_apply _ b i j c k h5, select_one]
  exact gather_apply x _ b i j c k h5

end Cert.ReferenceIdeal.Take

end
-- ==== Proof.ReferenceValue.lean ====
/-
  The reference computes the rolled-mask channel sum.

  At `(b, i, j)` its result is `0 + ∑ c` of the backward roll, at `(b, i, j, c)`, of the masked forward roll.  The
  backward roll reads row `k = (i − c) mod 64`; there the mask factor is `mask (k, j)` and the forward roll reads row
  `(k + c) mod 64 = i` of `x`.  So the term is `x (b, i, j, c) · mask ((i − c) mod 64, j)`, which is the
  specification's term.
-/
import proofs.«171113_j55533927137718_1_alg».proof.Proof.ReferenceStages
import proofs.«171113_j55533927137718_1_alg».proof.Proof.ReferenceIndexTables
import proofs.«171113_j55533927137718_1_alg».proof.Proof.ReferenceTake
import proofs.«171113_j55533927137718_1_alg».proof.Proof.RollSum
import Idealize.ShloMosaic.PureOps.Ideal.Laws
import Idealize.ShloMosaic.Lib.ValueIdx

noncomputable section

namespace Cert.ReferenceIdeal.Value

open Idealize.ShloMosaic Idealize.ShloMosaic.ValueIdx Idealize.SL.Sem
open Cert.ReferenceIdeal Cert.ReferenceIdeal.Gen Cert.ReferenceIdeal.Stages

/-- Rolling down by `c` and then up by `c` returns to row `i`. -/
theorem roll_cancel (i : Fin 64) (c : Fin 31) : ((i.val + 64 - c.val) % 64 + c.val) % 64 = i.val := by
  have hi := i.isLt
  have hc := c.isLt
  omega

/-- The shape fact that names the summed axis's index. -/
theorem reduces_chan : S256x64x64x31.Reduces [3] S256x64x64 := by decide

/-- Inserting channel `c` into a result index gives the four-coordinate input index. -/
theorem lift_chan (o : S256x64x64.Idx) (c : Fin (S256x64x64x31.size 3)) :
    reduces_chan.lift o c = ix4 (o 0) (o 1) (o 2) c := by
  funext a
  apply Fin.ext
  rw [Shape.Reduces.lift_val]
  match a with
  | ⟨0, _⟩ => simp [Shape.Reduces.liftVal]
  | ⟨1, _⟩ => simp [Shape.Reduces.liftVal]
  | ⟨2, _⟩ => simp [Shape.Reduces.liftVal]
  | ⟨3, _⟩ => simp [Shape.Reduces.liftVal]

/-- One term of the reference's channel sum. -/
theorem term_eq (x : FVec Ideal S256x64x64x31 .f32) (w : FVec Ideal S1024 .f32) (b : Fin 256) (i j : Fin 64) (c : Fin 31) :
    takeAlong (F := Ideal) (mulf (F := Ideal) (s := S256x64x64x31) (φ := .f32) (takeAlong (F := Ideal) x (spread (F := Ideal) (idxFwd (F := Ideal)))) (maskSpread (F := Ideal) w))
        (spread (F := Ideal) (idxBwd (F := Ideal))) (ix4 b i j c)
      = x (ix4 b i j c) * Cert.RollSum.table (Host.sign (F := Ideal) (s := S1024) (φ := .f32) w) (ix3 i j c) := by
  have hk : (i.val + 64 - c.val) % 64 < 64 := Nat.mod_lt _ (by norm_num)
  rw [Take.takeAlong_apply (F := Ideal) _ _ b i j c ⟨(i.val + 64 - c.val) % 64, hk⟩
    (by rw [Take.spread_apply, IndexTables.idxBwd_apply])]
  rw [mulf_apply]
  rw [Take.takeAlong_apply (F := Ideal) x (spread (F := Ideal) (idxFwd (F := Ideal))) b ⟨(i.val + 64 - c.val) % 64, hk⟩ j c i
    (by rw [Take.spread_apply, IndexTables.idxFwd_apply]; exact congrArg (BitVec.ofNat 32) (roll_cancel i c))]
  rw [Take.maskSpread_apply]
  rfl

/-- The reference's result is the specification's function of its arguments. -/
theorem result_eq (x : FVec Ideal S256x64x64x31 .f32) (w : FVec Ideal S1024 .f32) :
    Stages.result (F := Ideal) x w = Cert.RollSum.G x (Host.sign (F := Ideal) (s := S1024) (φ := .f32) w) := by
  funext o
  unfold Stages.result Host.reduceAdd
  rw [Ideal.hostReduceAdd_def, Ideal.hostReduceAdd_single _ reduces_chan]
  have h0 : (constant (F := Ideal) S_ .f32 0x00000000#32) (Shape.Idx.first h_S_) = 0 := by
    simp [constant, Ideal.ofBits_zero_f32]
  rw [h0, zero_add]
  unfold Cert.RollSum.G
  refine Finset.sum_congr rfl fun c _ => ?_
  rw [lift_chan o c]
  have e1 : Cert.RollSum.xIdx (o 0) (o 1) (o 2) c = ix4 (o 0) (o 1) (o 2) c := by
    funext a; match a with | ⟨0, _⟩ => rfl | ⟨1, _⟩ => rfl | ⟨2, _⟩ => rfl | ⟨3, _⟩ => rfl
  have e2 : Cert.RollSum.tIdx (o 1) (o 2) c = ix3 (o 1) (o 2) c := by
    funext a; match a with | ⟨0, _⟩ => rfl | ⟨1, _⟩ => rfl | ⟨2, _⟩ => rfl
  rw [e1, e2]
  exact term_eq x w (o 0) (o 1) (o 2) c

end Cert.ReferenceIdeal.Value

end
-- ==== Proof.lean ====
/-
  The certificate of the channel-rolled, sign-masked sum.

  Input `x : f32[256, 64, 64, 31]`, weights `w : f32[1024]`.  With `s = sign w` read as a 32×32 tile repeated 2×2
  (the 64×64 mask), both programs compute
      out (b, i, j) = ∑ c < 31, x (b, i, j, c) · mask ((i − c) mod 64, j).
  The reference rolls every channel `c` of `x` up by `c` rows, scales by the mask, rolls back down and sums the
  channels; the two rolls cancel on `x` and leave the mask rolled.  The kernel builds the rolled mask as a
  [64, 64, 31] table on the host (thirty-one row rotations stacked along a new last axis) and its one pallas_call
  multiplies each 4-row block of `x` by the table and sums the last axis.  At the ideal instance the two sides are
  the same sum of the same products (`Cert.RollSum.G`): no law beyond re-indexing is used, so the precondition is
  never opened.

  The frames: each kernel program runs its host operations and then the pipeline, whose body leaves its input
  buffers as found (Proof/KernelFrame.lean, Proof/KernelIdealFrame.lean); the reference is a straight line of host
  operations that writes neither argument (Proof/ReferenceRun.lean).  The idealization rewrote nothing, so
  `preserves` is `True`.
-/
import proofs.«171113_j55533927137718_1_alg».proof.Defs
import proofs.«171113_j55533927137718_1_alg».proof.Proof.Gen.Kernel
import proofs.«171113_j55533927137718_1_alg».proof.Proof.Gen.KernelIdeal
import proofs.«171113_j55533927137718_1_alg».proof.Proof.Gen.ReferenceIdeal
import proofs.«171113_j55533927137718_1_alg».proof.Proof.Gen.Pre_finite_inputs
import proofs.«171113_j55533927137718_1_alg».proof.Proof.KernelFrame
import proofs.«171113_j55533927137718_1_alg».proof.Proof.KernelIdealFrame
import proofs.«171113_j55533927137718_1_alg».proof.Proof.KernelIdealTable
import proofs.«171113_j55533927137718_1_alg».proof.Proof.KernelIdealValue
import proofs.«171113_j55533927137718_1_alg».proof.Proof.ReferenceRun
import proofs.«171113_j55533927137718_1_alg».proof.Proof.ReferenceValue
import Idealize.ShloMosaic.Adequacy
import Idealize.ShloMosaic.Init

noncomputable section

namespace Cert.Proof

open Idealize.ShloMosaic Idealize.SL.Sem

/-- The word-level kernel runs and leaves `x` and `w` as launched. -/
theorem frame_kernel : Cert.frame_Kernel := fun m ρ _ => Cert.Kernel.Frame.frame m ρ

/-- So does its reading at the ideal instance. -/
theorem frame_kernelIdeal : Cert.frame_KernelIdeal := fun m ρ _ => Cert.KernelIdeal.Frame.frame m ρ

/-- The reference runs and writes neither argument: its run with the result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- The ideal pass rewrote no operation. -/
theorem preserves : Cert.preserves_Kernel_KernelIdeal := trivial

/-- At the ideal instance the kernel's output array and the reference's result are both the rolled-mask channel sum
    of the (agreeing) arguments. -/
theorem algebraic : Cert.algebraic_KernelIdeal_ReferenceIdeal := by
  intro m ρ m' ρ' _ hagree
  refine ⟨_, Cert.KernelIdeal.Value.run_value m ρ (fun c => Cert.KernelIdeal.Table.table_eq m c), ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2]
  exact Cert.ReferenceIdeal.Value.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
